-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S256x64x1024 : S_.BroadcastsInDim S256x64x1024 (![] : Fin 0 → Fin S256x64x1024.rank)
  reducesTo_S256x64x1024_S_d0_1_2 : S256x64x1024.ReducesTo [0, 1, 2] S_
  bcast_S_S256x64x1 : S_.BroadcastsInDim S256x64x1 (![] : Fin 0 → Fin S256x64x1.rank)
  reducesTo_S256x64x1_S_d0_1_2 : S256x64x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_

variable [Facts]

def fn_part6 {F : FTy → Type} [FloatOps F] (main_arg21 : FVec F S1024 .f32) (main_v98 : IVec S_ 1) (main_v101 : IVec S512x1024 1) (main_c_39 : IVec S_ 1) : IVec S_ 1 :=
  let main_v102 : IVec S_ 1 := (fun x v => Host.reduce IntOp.andi x v reducesTo_S512x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S512x1024 .f32) (main_arg19 : FVec F S1024 .f32) (main_arg20 : FVec F S512x1024 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S512x1024 .f32 := Host.absf main_arg18
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S512x1024 .f32 := Host.absf main_arg20
  let main_cst_38 : FVec F S_ .f32 := constant S_ .f32 0x7F800000#32
  let main_v100 : FVec F S512x1024 .f32 := broadcastInDim S512x1024 ![] bcast_S_S512x1024 main_cst_38
  let main_v101 : IVec S512x1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S512x1024 .f32 := Host.absf main_arg16
  let main_cst_30 : FVec F S_ .f32 := constant S_ .f32 0x7F800000#32
  let main_v80 : FVec F S512x1024 .f32 := broadcastInDim S512x1024 ![] bcast_S_S512x1024 main_cst_30
  let main_v81 : IVec S512x1024 1 := cmpf .olt main_v79 main_v80
  let main_c_31 : IVec S_ 1 := constantI S_ 1 1#1
  let main_v82 : IVec S_ 1 := (fun x v => Host.reduce IntOp.andi x v reducesTo_S512x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v13 : IVec S_ 1) (main_v16 : IVec S256x64x1024 1) : IVec S_ 1 :=
  let main_c_5 : IVec S_ 1 := constantI S_ 1 1#1
  let main_v17 : IVec S_ 1 := (fun x v => Host.reduce IntOp.andi x v reducesTo_S256x64x1024_S_d0_1_2 h_S_) main_v16 main_c_5
  let main_v18 : IVec S_ 1 := andi main_v13 main_v17
  let main_v19 : FVec F S256x64x1024 .f32 := Host.absf main_arg4
  let main_cst_6 : FVec F S_ .f32 := constant S_ .f32 0x7F800000#32
  let main_v20 : FVec F S256x64x1024 .f32 := broadcastInDim S256x64x1024 ![] bcast_S_S256x64x1024 main_cst_6
  let main_v21 : IVec S256x64x1024 1 := cmpf .olt main_v19 main_v20
  let main_c_7 : IVec S_ 1 := constantI S_ 1 1#1
  let main_v22 : IVec S_ 1 := (fun x v => Host.reduce IntOp.andi x v reducesTo_S256x64x1024_S_d0_1_2 h_S_) main_v21 main_c_7
  let main_v23 : IVec S_ 1 := andi main_v18 main_v22
  let main_v24 : FVec F S256x64x1 .f32 := Host.absf main_arg5
  let main_cst_8 : FVec F S_ .f32 := constant S_ .f32 0x7F800000#32
  let main_v25 : FVec F S256x64x1 .f32 := broadcastInDim S256x64x1 ![] bcast_S_S256x64x1 main_cst_8
  let main_v26 : IVec S256x64x1 1 := cmpf .olt main_v24 main_v25
  let main_c_9 : IVec S_ 1 := constantI S_ 1 1#1
  let main_v27 : IVec S_ 1 := (fun x v => Host.reduce IntOp.andi x v reducesTo_S256x64x1_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S256x64x512 .f32) (main_arg1 : FVec F S256x64x1024 .f32) (main_arg2 : FVec F S256x64x1024 .f32) (main_arg3 : FVec F S256x64x1024 .f32) (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_c_1 : IVec S_ 1 := constantI S_ 1 1#1
  let main_v7 : IVec S_ 1 := (fun x v => Host.reduce IntOp.andi x v reducesTo_S256x64x1024_S_d0_1_2 h_S_) main_v6 main_c_1
  let main_v8 : IVec S_ 1 := andi main_v3 main_v7
  let main_v9 : FVec F S256x64x1024 .f32 := Host.absf main_arg2
  let main_cst_2 : FVec F S_ .f32 := constant S_ .f32 0x7F800000#32
  let main_v10 : FVec F S256x64x1024 .f32 := broadcastInDim S256x64x1024 ![] bcast_S_S256x64x1024 main_cst_2
  let main_v11 : IVec S256x64x1024 1 := cmpf .olt main_v9 main_v10
  let main_c_3 : IVec S_ 1 := constantI S_ 1 1#1
  let main_v12 : IVec S_ 1 := (fun x v => Host.reduce IntOp.andi x v reducesTo_S256x64x1024_S_d0_1_2 h_S_) main_v11 main_c_3
  let main_v13 : IVec S_ 1 := andi main_v8 main_v12
  let main_v14 : FVec F S256x64x1024 .f32 := Host.absf main_arg3
  let main_cst_4 : FVec F S_ .f32 := constant S_ .f32 0x7F800000#32
  let main_v15 : FVec F S256x64x1024 .f32 := broadcastInDim S256x64x1024 ![] bcast_S_S256x64x1024 main_cst_4
  let main_v16 : IVec S256x64x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S2x64x512 : Shape := ⟨3, ![2, 64, 512]⟩
abbrev S2x64x1024 : Shape := ⟨3, ![2, 64, 1024]⟩
abbrev S2x64x1 : Shape := ⟨3, ![2, 64, 1]⟩
abbrev S128x1024 : Shape := ⟨2, ![128, 1024]⟩
abbrev S128x512 : Shape := ⟨2, ![128, 512]⟩

abbrev nBuf : Space → Nat
  | .hbm => 42
  | .vmem => 32
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S1024, .f32⟩
  | .hbm, ⟨18, _⟩ => ⟨S512x1024, .f32⟩
  | .hbm, ⟨19, _⟩ => ⟨S1024, .f32⟩
  | .hbm, ⟨20, _⟩ => ⟨S512x1024, .f32⟩
  | .hbm, ⟨21, _⟩ => ⟨S1024, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S512x1024, .bf16⟩
  | .hbm, ⟨27, _⟩ => ⟨S512x1024, .bf16⟩
  | .hbm, ⟨28, _⟩ => ⟨S512x1024, .bf16⟩
  | .hbm, ⟨29, _⟩ => ⟨S512x1024, .bf16⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S256x64x1024, .f32⟩
  | .hbm, ⟨39, _⟩ => ⟨S256x64x1024, .f32⟩
  | .hbm, ⟨40, _⟩ => ⟨S256x64x1024, .f32⟩
  | .hbm, ⟨41, _⟩ => ⟨S256x64x1024, .f32⟩
  | .local _ .vmem, ⟨0, _⟩ => ⟨S2x64x512, .f32⟩
  | .local _ .vmem, ⟨1, _⟩ => ⟨S2x64x512, .f32⟩
  | .local _ .vmem, ⟨2, _⟩ => ⟨S2x64x1024, .f32⟩
  | .local _ .vmem, ⟨3, _⟩ => ⟨S2x64x1024, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x1024, .f32⟩
  | .local _ .vmem, ⟨9, _⟩ => ⟨S2x64x1024, .f32⟩
  | .local _ .vmem, ⟨10, _⟩ => ⟨S2x64x1, .f32⟩
  | .local _ .vmem, ⟨11, _⟩ => ⟨S2x64x1, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S2x64x1024, .f32⟩
  | .local _ .vmem, ⟨25, _⟩ => ⟨S2x64x1024, .f32⟩
  | .local _ .vmem, ⟨26, _⟩ => ⟨S2x64x1024, .f32⟩
  | .local _ .vmem, ⟨27, _⟩ => ⟨S2x64x1024, .f32⟩
  | .local _ .vmem, ⟨28, _⟩ => ⟨S2x64x1024, .f32⟩
  | .local _ .vmem, ⟨29, _⟩ => ⟨S2x64x1024, .f32⟩
  | .local _ .vmem, ⟨30, _⟩ => ⟨S2x64x1024, .f32⟩
  | .local _ .vmem, ⟨31, _⟩ => ⟨S2x64x1024, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev main_v16_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  inb_S2x64x1024_S2x64x1024_0_0_0 : ∀ a, (![0, 0, 0] : Fin 3 → Nat) a + S2x64x1024.size a ≤ S2x64x1024.size a
  h_S2x64x1024 : 0 < S2x64x1024.numel
  shapeCasts_S2x64x1024_S128x1024 : S2x64x1024.ShapeCasts S128x1024
  inb_S2x64x512_S2x64x512_0_0_0 : ∀ a, (![0, 0, 0] : Fin 3 → Nat) a + S2x64x512.size a ≤ S2x64x512.size a
  h_S2x64x512 : 0 < S2x64x512.numel
  shapeCasts_S2x64x512_S128x512 : S2x64x512.ShapeCasts S128x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  shapeCasts_S128x1024_S2x64x1024 : S128x1024.ShapeCasts S2x64x1024
  inb_S2x64x1_S2x64x1_0_0_0 : ∀ a, (![0, 0, 0] : Fin 3 → Nat) a + S2x64x1.size a ≤ S2x64x1.size a
  h_S2x64x1 : 0 < S2x64x1.numel
  broadcasts_S2x64x1_S2x64x1024 : S2x64x1.Broadcasts S2x64x1024
  dot_S128x1024_S1024x1024_S128x1024_1_0_0_1_n_n_wf : DotDims.WF S128x1024 S1024x1024 S128x1024 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x512.size a ≤ S256x64x512.size a
  hwx0_0 : ∀ i : grid0.Coords, EltTy.bits .f32 = 32 ∨ (Rect.block (s := S256x64x512) S2x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x1024.size a ≤ S256x64x1024.size a
  hwx0_1 : ∀ i : grid0.Coords, EltTy.bits .f32 = 32 ∨ (Rect.block (s := S256x64x1024) S2x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64x1024.size a ≤ S256x64x1024.size a
  hwx0_2 : ∀ i : grid0.Coords, EltTy.bits .f32 = 32 ∨ (Rect.block (s := S256x64x1024) S2x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x1024.size a ≤ S256x64x1024.size a
  hwx0_3 : ∀ i : grid0.Coords, EltTy.bits .f32 = 32 ∨ (Rect.block (s := S256x64x1024) S2x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x1024.size a ≤ S256x64x1024.size a
  hwx0_4 : ∀ i : grid0.Coords, EltTy.bits .f32 = 32 ∨ (Rect.block (s := S256x64x1024) S2x64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x64x1.size a ≤ S256x64x1.size a
  hwx0_5 : ∀ i : grid0.Coords, EltTy.bits .f32 = 32 ∨ (Rect.block (s := S256x64x1) S2x64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S512x1024.size a
  hwx0_10 : ∀ i : grid0.Coords, EltTy.bits .bf16 = 32 ∨ (Rect.block (s := S512x1024) S512x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S512x1024.size a
  hwx0_11 : ∀ i : grid0.Coords, EltTy.bits .bf16 = 32 ∨ (Rect.block (s := S512x1024) S512x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .bf16 = 32 ∨ (Rect.block (s := S512x1024) S512x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x64x1024.size a ≤ S256x64x1024.size a
  hwx0_18 : ∀ i : grid0.Coords, EltTy.bits .f32 = 32 ∨ (Rect.block (s := S256x64x1024) S2x64x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2x64x1024.size a ≤ S256x64x1024.size a
  hwx0_19 : ∀ i : grid0.Coords, EltTy.bits .f32 = 32 ∨ (Rect.block (s := S256x64x1024) S2x64x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2x64x1024.size a ≤ S256x64x1024.size a
  hwx0_20 : ∀ i : grid0.Coords, EltTy.bits .f32 = 32 ∨ (Rect.block (s := S256x64x1024) S2x64x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2x64x1024.size a ≤ S256x64x1024.size a
  hwx0_21 : ∀ i : grid0.Coords, EltTy.bits .f32 = 32 ∨ (Rect.block (s := S256x64x1024) S2x64x1024.size (cc0_transform_21 i) (hinb0_21 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S2x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16_0) S2x64x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v16_1) S2x64x1024.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v16_2) S2x64x1024.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v16_3) S2x64x1024.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S1024x4096 : Shape := ⟨2, ![1024, 4096]⟩
abbrev S512x4096 : Shape := ⟨2, ![512, 4096]⟩
abbrev S4096 : Shape := ⟨1, ![4096]⟩
abbrev S256x64x4096 : Shape := ⟨3, ![256, 64, 4096]⟩
abbrev S1x1x4096 : Shape := ⟨3, ![1, 1, 4096]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S1024, .f32⟩
  | .hbm, ⟨18, _⟩ => ⟨S512x1024, .f32⟩
  | .hbm, ⟨19, _⟩ => ⟨S1024, .f32⟩
  | .hbm, ⟨20, _⟩ => ⟨S512x1024, .f32⟩
  | .hbm, ⟨21, _⟩ => ⟨S1024, .f32⟩
  | .hbm, ⟨22, _⟩ => ⟨S1024x4096, .f32⟩
  | .hbm, ⟨23, _⟩ => ⟨S512x4096, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S4096, .f32⟩
  | .hbm, ⟨29, _⟩ => ⟨S256x64x4096, .f32⟩
  | .hbm, ⟨30, _⟩ => ⟨S256x64x4096, .f32⟩
  | .hbm, ⟨31, _⟩ => ⟨S256x64x4096, .f32⟩
  | .hbm, ⟨32, _⟩ => ⟨S1x1x4096, .f32⟩
  | .hbm, ⟨33, _⟩ => ⟨S256x64x4096, .f32⟩
  | .hbm, ⟨34, _⟩ => ⟨S256x64x4096, .f32⟩
  | .hbm, ⟨35, _⟩ => ⟨S256x64x1024, .f32⟩
  | .hbm, ⟨36, _⟩ => ⟨S256x64x1024, .f32⟩
  | .hbm, ⟨37, _⟩ => ⟨S256x64x1024, .f32⟩
  | .hbm, ⟨38, _⟩ => ⟨S256x64x1024, .f32⟩
  | .hbm, ⟨39, _⟩ => ⟨S256x64x1024, .f32⟩
  | .hbm, ⟨40, _⟩ => ⟨S256x64x1024, .f32⟩
  | .hbm, ⟨41, _⟩ => ⟨S256x64x1024, .f32⟩
  | .hbm, ⟨42, _⟩ => ⟨S256x64x1024, .f32⟩
  | .hbm, ⟨43, _⟩ => ⟨S256x64x1024, .f32⟩
  | .hbm, ⟨44, _⟩ => ⟨S256x64x1024, .f32⟩
  | .hbm, ⟨45, _⟩ => ⟨S256x64x1024, .f32⟩
  | .hbm, ⟨46, _⟩ => ⟨S256x64x1024, .f32⟩
  | .hbm, ⟨47, _⟩ => ⟨S256x64x1024, .f32⟩
  | .hbm, ⟨48, _⟩ => ⟨S_, .f32⟩
  | .hbm, ⟨49, _⟩ => ⟨S256x64x1024, .f32⟩
  | .hbm, ⟨50, _⟩ => ⟨S256x64x1024, .f32⟩
  | .hbm, ⟨51, _⟩ => ⟨S_, .f32⟩
  | .hbm, ⟨52, _⟩ => ⟨S256x64x1024, .f32⟩
  | .hbm, ⟨53, _⟩ => ⟨S256x64x1024, .f32⟩
  | .hbm, ⟨54, _⟩ => ⟨S256x64x1024, .f32⟩
  | .hbm, ⟨55, _⟩ => ⟨S256x64x1024, .f32⟩
  | .hbm, ⟨56, _⟩ => ⟨S256x64x1024, .f32⟩
  | .hbm, ⟨57, _⟩ => ⟨S256x64x1024, .f32⟩
  | .hbm, ⟨58, _⟩ => ⟨S256x64x1024, .f32⟩
  | .hbm, ⟨59, _⟩ => ⟨S256x64x1024, .f32⟩
  | .hbm, ⟨60, _⟩ => ⟨S256x64x1024, .f32⟩
  | .hbm, ⟨61, _⟩ => ⟨S256x64x1024, .f32⟩
  | .hbm, ⟨62, _⟩ => ⟨S_, .f32⟩
  | .hbm, ⟨63, _⟩ => ⟨S256x64x1, .f32⟩
  | .hbm, ⟨64, _⟩ => ⟨S256x64x1, .f32⟩
  | .hbm, ⟨65, _⟩ => ⟨S256x64x1024, .f32⟩
  | .hbm, ⟨66, _⟩ => ⟨S256x64x1024, .f32⟩
  | .hbm, ⟨67, _⟩ => ⟨S256x64x1024, .f32⟩
  | .hbm, ⟨68, _⟩ => ⟨S256x64x1024, .f32⟩
  | .hbm, ⟨69, _⟩ => ⟨S256x64x1024, .f32⟩
  | .hbm, ⟨70, _⟩ => ⟨S256x64x1024, .f32⟩
  | .hbm, ⟨71, _⟩ => ⟨S256x64x1024, .f32⟩
  | .hbm, ⟨72, _⟩ => ⟨S_, .f32⟩
  | .hbm, ⟨73, _⟩ => ⟨S256x64x1, .f32⟩
  | .hbm, ⟨74, _⟩ => ⟨S256x64x1, .f32⟩
  | .hbm, ⟨75, _⟩ => ⟨S256x64x1024, .f32⟩
  | .hbm, ⟨76, _⟩ => ⟨S256x64x1024, .f32⟩
  | .hbm, ⟨77, _⟩ => ⟨S256x64x1024, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_1 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S512x1024_S512x1024_S512x1024_S512x1024_S512x4096_d1 : Shape.Concatenates [S512x1024, S512x1024, S512x1024, S512x1024] S512x4096 1
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S256x64x4096_0_1_2 : S1x1x4096.BroadcastsInDim S256x64x4096 (![0, 1, 2] : Fin 3 → Fin S256x64x4096.rank)
  slices_S256x64x4096_S256x64x1024_0_0_0 : S256x64x4096.Slices ![0, 0, 0] S256x64x1024
  slices_S256x64x4096_S256x64x1024_0_0_1024 : S256x64x4096.Slices ![0, 0, 1024] S256x64x1024
  slices_S256x64x4096_S256x64x1024_0_0_2048 : S256x64x4096.Slices ![0, 0, 2048] S256x64x1024
  slices_S256x64x4096_S256x64x1024_0_0_3072 : S256x64x4096.Slices ![0, 0, 3072] S256x64x1024
  bcast_S_S256x64x1024 : S_.BroadcastsInDim S256x64x1024 (![] : Fin 0 → Fin S256x64x1024.rank)
  bcast_S256x64x1_S256x64x1024_0_1_2 : S256x64x1.BroadcastsInDim S256x64x1024 (![0, 1, 2] : Fin 3 → Fin S256x64x1024.rank)
  bcast_S_S256x64x1 : S_.BroadcastsInDim S256x64x1 (![] : Fin 0 → Fin S256x64x1.rank)
  dot_S256x64x1024_S1024x4096_S256x64x4096_2_0_01_1_n_n_wf : DotDims.WF S256x64x1024 S1024x4096 S256x64x4096 [2] [0] [0, 1] [1] [] []
  dot_S256x64x512_S512x4096_S256x64x4096_2_0_01_1_n_n_wf : DotDims.WF S256x64x512 S512x4096 S256x64x4096 [2] [0] [0, 1] [1] [] []

variable [Facts₀]

def dot_S256x64x1024_S1024x4096_S256x64x4096_2_0_01_1_n_n : DotDims S256x64x1024 S1024x4096 S256x64x4096 where
  lhsContracting := [2]
  rhsContracting := [0]
  lhsNonContracting := [0, 1]
  rhsNonContracting := [1]
  lhsBatch := []
  rhsBatch := []
  wf := dot_S256x64x1024_S1024x4096_S256x64x4096_2_0_01_1_n_n_wf
def dot_S256x64x512_S512x4096_S256x64x4096_2_0_01_1_n_n : DotDims S256x64x512 S512x4096 S256x64x4096 where
  lhsContracting := [2]
  rhsContracting := [0]
  lhsNonContracting := [0, 1]
  rhsNonContracting := [1]
  lhsBatch := []
  rhsBatch := []
  wf := dot_S256x64x512_S512x4096_S256x64x4096_2_0_01_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.BlockGate.lean ====
/-
  A gate's pre-activation for one block of two batch rows, read at an index.

  The block's hidden rows [2, 64, 1024] and input rows [2, 64, 512] are flattened to 128 rows, multiplied against the
  gate's two weight matrices, the products added, the bias row added to every row, and the result folded back to
  [2, 64, 1024]. Row a·64 + p of the flattened block is row (a, p) of the block, so entry (a, p, f) of the result is
      (Σ_k xH(a, p, k) · W(k, f) + Σ_k xZ(a, p, k) · R(k, f)) + bias(0, f).
  The narrowing of the operands to the matrix unit's format is the identity on extended reals.
-/
import Idealize.ShloMosaic.Lib.ValueIdx
import Idealize.ShloMosaic.Lib.Pipeline.Value
import Idealize.ShloMosaic.Lib.ValueLayout
import Idealize.ShloMosaic.PureOps.Ideal.Laws
import proofs.«108904_j31688268710611_1_alg».proof.Proof.LibOuterDot

noncomputable section

open scoped BigOperators

namespace Cert.BlockGate

open Idealize.ShloMosaic Idealize.ShloMosaic.ValueIdx

/-- Row a·64 + p of the flattened block. -/
def row (a : Fin 2) (p : Fin 64) : Fin 128 := ⟨a.val * 64 + p.val, by have := a.isLt; have := p.isLt; omega⟩

/-- Flattening [2, 64, n] to [128, n]: row a·64 + p is row (a, p). -/
theorem flat_apply {n : Nat} {α : Type} (x : (⟨3, ![2, 64, n]⟩ : Shape).Idx → α)
    (h : (⟨3, ![2, 64, n]⟩ : Shape).ShapeCasts ⟨2, ![128, n]⟩) (a : Fin 2) (p : Fin 64) (k : Fin n) :
    shapeCast ⟨2, ![128, n]⟩ x h (ix2 (row a p) k) = x (ix3 a p k) := by
  refine shapeCast_apply x h _ _ ?_
  rw [Shape.rowMajor_val_three, Shape.rowMajor_val_two]
  rfl

/-- Folding [128, n] back to [2, 64, n]: entry (a, p, f) is row a·64 + p at f. -/
theorem fold_apply {n : Nat} {α : Type} (y : (⟨2, ![128, n]⟩ : Shape).Idx → α)
    (h : (⟨2, ![128, n]⟩ : Shape).ShapeCasts ⟨3, ![2, 64, n]⟩) (a : Fin 2) (p : Fin 64) (f : Fin n) :
    shapeCast ⟨3, ![2, 64, n]⟩ y h (ix3 a p f) = y (ix2 (row a p) f) := by
  refine shapeCast_apply y h _ _ ?_
  rw [Shape.rowMajor_val_three, Shape.rowMajor_val_two]
  rfl

/-- A plain product of the flattened block with a weight matrix, read at (row (a, p), f). -/
theorem flat_matmul_apply {K : Nat} {φ₁ φ₂ : FTy}
    (d : DotDims ⟨2, ![128, K]⟩ ⟨2, ![K, 1024]⟩ ⟨2, ![128, 1024]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨3, ![2, 64, K]⟩ φ₁) (W : FVec Ideal ⟨2, ![K, 1024]⟩ φ₂)
    (c1 : (⟨3, ![2, 64, K]⟩ : Shape).ShapeCasts ⟨2, ![128, K]⟩) (cW : (⟨2, ![K, 1024]⟩ : Shape).ShapeCasts ⟨2, ![K, 1024]⟩)
    (t1 : FTy.bf16.bits < φ₁.bits) (a : Fin 2) (p : Fin 64) (f : Fin 1024) :
    matmul d none (truncf .bf16 (shapeCast ⟨2, ![128, K]⟩ x c1) t1) (shapeCast ⟨2, ![K, 1024]⟩ W cW)
        (constant ⟨2, ![128, 1024]⟩ .f32 0x00000000#32) (ix2 (row a p) f)
      = ∑ k : Fin K, x (ix3 a p k) * W (ix2 k f) := by
  rw [Cert.LibOuterDot.matmul_zero_ix2 d hr hs hlc hrc hln hrn hlb hrb]
  refine Finset.sum_congr rfl fun k _ => ?_
  rw [shapeCast_self]
  exact congrArg (· * W (ix2 k f)) (flat_apply x c1 a p k)

/-- The gate's pre-activation for the block at (a, p, f). -/
theorem gate_block_apply {φ₂ : FTy}
    (d1 : DotDims ⟨2, ![128, 1024]⟩ ⟨2, ![1024, 1024]⟩ ⟨2, ![128, 1024]⟩) (hr1 : d1.contr.rank = 1)
    (hs1 : d1.contr.size ⟨0, by omega⟩ = 1024)
    (hlc1 : d1.lhsContracting = [1]) (hrc1 : d1.rhsContracting = [0]) (hln1 : d1.lhsNonContracting = [0])
    (hrn1 : d1.rhsNonContracting = [1]) (hlb1 : d1.lhsBatch = []) (hrb1 : d1.rhsBatch = [])
    (d2 : DotDims ⟨2, ![128, 512]⟩ ⟨2, ![512, 1024]⟩ ⟨2, ![128, 1024]⟩) (hr2 : d2.contr.rank = 1)
    (hs2 : d2.contr.size ⟨0, by omega⟩ = 512)
    (hlc2 : d2.lhsContracting = [1]) (hrc2 : d2.rhsContracting = [0]) (hln2 : d2.lhsNonContracting = [0])
    (hrn2 : d2.rhsNonContracting = [1]) (hlb2 : d2.lhsBatch = []) (hrb2 : d2.rhsBatch = [])
    (xH : FVec Ideal ⟨3, ![2, 64, 1024]⟩ .f32) (xZ : FVec Ideal ⟨3, ![2, 64, 512]⟩ .f32)
    (W : FVec Ideal ⟨2, ![1024, 1024]⟩ φ₂) (R : FVec Ideal ⟨2, ![512, 1024]⟩ φ₂) (bb : FVec Ideal ⟨2, ![1, 1024]⟩ .f32)
    (c1 : (⟨3, ![2, 64, 1024]⟩ : Shape).ShapeCasts ⟨2, ![128, 1024]⟩) (c2 : (⟨3, ![2, 64, 512]⟩ : Shape).ShapeCasts ⟨2, ![128, 512]⟩)
    (cW : (⟨2, ![1024, 1024]⟩ : Shape).ShapeCasts ⟨2, ![1024, 1024]⟩) (cR : (⟨2, ![512, 1024]⟩ : Shape).ShapeCasts ⟨2, ![512, 1024]⟩)
    (cb : (⟨2, ![1, 1024]⟩ : Shape).ShapeCasts ⟨2, ![1, 1024]⟩) (hb : (⟨2, ![1, 1024]⟩ : Shape).Broadcasts ⟨2, ![128, 1024]⟩)
    (c3 : (⟨2, ![128, 1024]⟩ : Shape).ShapeCasts ⟨3, ![2, 64, 1024]⟩) (t1 : FTy.bf16.bits < FTy.f32.bits)
    (a : Fin 2) (p : Fin 64) (f : Fin 1024) :
    shapeCast ⟨3, ![2, 64, 1024]⟩ (addf (F := Ideal) (φ := .f32)
        (addf (matmul d1 none (truncf .bf16 (shapeCast ⟨2, ![128, 1024]⟩ xH c1) t1) (shapeCast ⟨2, ![1024, 1024]⟩ W cW)
                (constant ⟨2, ![128, 1024]⟩ .f32 0x00000000#32))
              (matmul d2 none (truncf .bf16 (shapeCast ⟨2, ![128, 512]⟩ xZ c2) t1) (shapeCast ⟨2, ![512, 1024]⟩ R cR)
                (constant ⟨2, ![128, 1024]⟩ .f32 0x00000000#32)))
        (broadcastTo ⟨2, ![128, 1024]⟩ (shapeCast ⟨2, ![1, 1024]⟩ bb cb) hb)) c3 (ix3 a p f)
      = ((∑ k : Fin 1024, xH (ix3 a p k) * W (ix2 k f)) + ∑ k : Fin 512, xZ (ix3 a p k) * R (ix2 k f)) + bb (ix2 (0 : Fin 1) f) := by
  rw [fold_apply, addf_apply, addf_apply,
    flat_matmul_apply d1 hr1 hs1 hlc1 hrc1 hln1 hrn1 hlb1 hrb1,
    flat_matmul_apply d2 hr2 hs2 hlc2 hrc2 hln2 hrn2 hlb2 hrb2,
    broadcastTo_1b_ab_apply, shapeCast_self]

/-- The keep mask [2, 64, 1] spread over the features: entry (a, p, f) is the mask at (a, p, 0). -/
theorem keep_bcast_apply {α : Type} (v : (⟨3, ![2, 64, 1]⟩ : Shape).Idx → α)
    (h : (⟨3, ![2, 64, 1]⟩ : Shape).Broadcasts ⟨3, ![2, 64, 1024]⟩) (a : Fin 2) (p : Fin 64) (f : Fin 1024) :
    broadcastTo ⟨3, ![2, 64, 1024]⟩ v h (ix3 a p f) = v (ix3 a p (0 : Fin 1)) := by
  refine broadcastTo_apply v h (ix3 a p f) (ix3 a p (0 : Fin 1)) fun ax => ?_
  match ax with
  | ⟨0, _⟩ => rfl
  | ⟨1, _⟩ => rfl
  | ⟨2, _⟩ => rfl

end Cert.BlockGate

end
-- ==== Proof.Spec.lean ====
/-
  The cell update this certificate is about, written once over the extended reals.

  For a batch row b, a position p and a feature f, each of the four gates has the pre-activation
      g(b, p, f) = (Σ_k H(b, p, k) · W(k, f) + Σ_k Z(b, p, k) · R(k, f)) + (bw(f) + br(f)),
  the first sum over the 1024 hidden features, the second over the 512 input features. From the four pre-activations
  ĩ, f̃, õ, z̃ and the old state (c, m, h, n) at the same index and the keep mask μ(b, p):
      m' = max(f̃ + m, ĩ),   i = exp(ĩ − m'),   f = exp((f̃ + m) − m'),
      n' = f · n + i,
      c' = (c · f + tanh z̃ · i) · μ + (1 − μ) · c,
      h' = σ(õ) · (c' / n') · μ + (1 − μ) · h,        σ(x) = 1 / (1 + exp(−x)).
  Both programs compute exactly these four arrays; they differ only in how the sums are laid out (four products
  against one product with the four weight matrices side by side) and in the tiling over the batch axis.
-/
import Idealize.ShloMosaic.Lib.ValueIdx
import Idealize.ShloMosaic.PureOps.Ideal

noncomputable section

open scoped BigOperators

namespace Cert.Cell

open Idealize.ShloMosaic Idealize.ShloMosaic.ValueIdx

/-- [256, 64, 512]: the input sequence. -/
abbrev SZ : Shape := ⟨3, ![256, 64, 512]⟩
/-- [256, 64, 1024]: a state array. -/
abbrev SX : Shape := ⟨3, ![256, 64, 1024]⟩
/-- [256, 64, 1]: the keep mask. -/
abbrev SK : Shape := ⟨3, ![256, 64, 1]⟩
/-- [1024, 1024]: a hidden-to-gate weight. -/
abbrev SW : Shape := ⟨2, ![1024, 1024]⟩
/-- [512, 1024]: an input-to-gate weight. -/
abbrev SR : Shape := ⟨2, ![512, 1024]⟩
/-- [1024]: a bias. -/
abbrev SB : Shape := ⟨1, ![1024]⟩

/-- The literal 1.0. -/
def one : EReal := Ideal.ofBits .f32 0x3F800000#32

/-- The new stabilizer m'. -/
def mNew (it ft mi : EReal) : EReal := max (ft + mi) it
/-- The stabilized input gate. -/
def iGate (it ft mi : EReal) : EReal := Ideal.exp (it - mNew it ft mi)
/-- The stabilized forget gate. -/
def fGate (it ft mi : EReal) : EReal := Ideal.exp ((ft + mi) - mNew it ft mi)
/-- The new normalizer n'. -/
def nNew (it ft mi ni : EReal) : EReal := fGate it ft mi * ni + iGate it ft mi
/-- The new cell state c'. -/
def cNew (it ft zt mi ci mk : EReal) : EReal :=
  (ci * fGate it ft mi + Ideal.tanh zt * iGate it ft mi) * mk + (one - mk) * ci
/-- The new hidden state h'. -/
def hNew (it ft ot zt mi ci ni hi mk : EReal) : EReal :=
  Ideal.logistic ot * Ideal.div (cNew it ft zt mi ci mk) (nNew it ft mi ni) * mk + (one - mk) * hi

/-- A gate's pre-activation at (b, p, f). -/
def gate (H : SX.Idx → EReal) (Z : SZ.Idx → EReal) (W : SW.Idx → EReal) (R : SR.Idx → EReal) (bw br : SB.Idx → EReal)
    (b : Fin 256) (p : Fin 64) (f : Fin 1024) : EReal :=
  ((∑ k : Fin 1024, H (ix3 b p k) * W (ix2 k f)) + ∑ k : Fin 512, Z (ix3 b p k) * R (ix2 k f)) + (bw (ix1 f) + br (ix1 f))

/-- The twenty-two argument arrays, in the order both programs take them. -/
structure Args where
  Zi : SZ.Idx → EReal
  Ci : SX.Idx → EReal
  Mi : SX.Idx → EReal
  Hi : SX.Idx → EReal
  Ni : SX.Idx → EReal
  keep : SK.Idx → EReal
  WI : SW.Idx → EReal
  bWI : SB.Idx → EReal
  WF : SW.Idx → EReal
  bWF : SB.Idx → EReal
  WO : SW.Idx → EReal
  bWO : SB.Idx → EReal
  WZ : SW.Idx → EReal
  bWZ : SB.Idx → EReal
  RI : SR.Idx → EReal
  bRI : SB.Idx → EReal
  RF : SR.Idx → EReal
  bRF : SB.Idx → EReal
  RO : SR.Idx → EReal
  bRO : SB.Idx → EReal
  RZ : SR.Idx → EReal
  bRZ : SB.Idx → EReal

/-- ĩ at (b, p, f). -/
def Args.preI (A : Args) (b : Fin 256) (p : Fin 64) (f : Fin 1024) : EReal := gate A.Hi A.Zi A.WI A.RI A.bWI A.bRI b p f
/-- f̃ at (b, p, f). -/
def Args.preF (A : Args) (b : Fin 256) (p : Fin 64) (f : Fin 1024) : EReal := gate A.Hi A.Zi A.WF A.RF A.bWF A.bRF b p f
/-- õ at (b, p, f). -/
def Args.preO (A : Args) (b : Fin 256) (p : Fin 64) (f : Fin 1024) : EReal := gate A.Hi A.Zi A.WO A.RO A.bWO A.bRO b p f
/-- z̃ at (b, p, f). -/
def Args.preZ (A : Args) (b : Fin 256) (p : Fin 64) (f : Fin 1024) : EReal := gate A.Hi A.Zi A.WZ A.RZ A.bWZ A.bRZ b p f

/-- The new cell state at (b, p, f). -/
def Args.cAt (A : Args) (b : Fin 256) (p : Fin 64) (f : Fin 1024) : EReal :=
  cNew (A.preI b p f) (A.preF b p f) (A.preZ b p f) (A.Mi (ix3 b p f)) (A.Ci (ix3 b p f)) (A.keep (ix3 b p (0 : Fin 1)))
/-- The new stabilizer at (b, p, f). -/
def Args.mAt (A : Args) (b : Fin 256) (p : Fin 64) (f : Fin 1024) : EReal :=
  mNew (A.preI b p f) (A.preF b p f) (A.Mi (ix3 b p f))
/-- The new hidden state at (b, p, f). -/
def Args.hAt (A : Args) (b : Fin 256) (p : Fin 64) (f : Fin 1024) : EReal :=
  hNew (A.preI b p f) (A.preF b p f) (A.preO b p f) (A.preZ b p f) (A.Mi (ix3 b p f)) (A.Ci (ix3 b p f)) (A.Ni (ix3 b p f))
    (A.Hi (ix3 b p f)) (A.keep (ix3 b p (0 : Fin 1)))
/-- The new normalizer at (b, p, f). -/
def Args.nAt (A : Args) (b : Fin 256) (p : Fin 64) (f : Fin 1024) : EReal :=
  nNew (A.preI b p f) (A.preF b p f) (A.Mi (ix3 b p f)) (A.Ni (ix3 b p f))

/-- The four result arrays. -/
def Args.outC (A : Args) : SX.Idx → EReal := fun j => A.cAt (j 0) (j 1) (j 2)
def Args.outM (A : Args) : SX.Idx → EReal := fun j => A.mAt (j 0) (j 1) (j 2)
def Args.outH (A : Args) : SX.Idx → EReal := fun j => A.hAt (j 0) (j 1) (j 2)
def Args.outN (A : Args) : SX.Idx → EReal := fun j => A.nAt (j 0) (j 1) (j 2)

end Cert.Cell

end
-- ==== Proof.KernelCell.lean ====
/-
  What one grid point of the kernel leaves in each of its four output blocks, entry by entry.

  A point holds blocks of two batch rows: the input rows xZ [2, 64, 512], the old hidden state xH, cell state xC,
  stabilizer xM and normalizer xN [2, 64, 1024], the keep mask xk [2, 64, 1], and whole the eight weight matrices and the
  four bias rows [1, 1024]. Entry (a, p, f) of a gate's pre-activation is
      (Σ_k xH(a, p, k) · W(k, f) + Σ_k xZ(a, p, k) · R(k, f)) + bias(0, f)
  and each output entry is the cell update of the four pre-activations and the old state at (a, p, f), the mask at (a, p, 0).
-/
import proofs.«108904_j31688268710611_1_alg».proof.Proof.Gen.KernelIdeal.Frame
import proofs.«108904_j31688268710611_1_alg».proof.Proof.BlockGate
import proofs.«108904_j31688268710611_1_alg».proof.Proof.Spec

noncomputable section

open scoped BigOperators

namespace Cert.KernelCell

open Idealize.ShloMosaic Idealize.ShloMosaic.ValueIdx Idealize.ShloMosaic.TcCoe Cert.KernelIdeal Cert.KernelIdeal.Gen Cert.Cell

/-- A gate's pre-activation for the point's blocks at (a, p, f). -/
def blkGate (xH : FVec Ideal S2x64x1024 .f32) (xZ : FVec Ideal S2x64x512 .f32) (W : FVec Ideal S1024x1024 .bf16)
    (R : FVec Ideal S512x1024 .bf16) (bb : FVec Ideal S1x1024 .f32) (a : Fin 2) (p : Fin 64) (f : Fin 1024) : EReal :=
  ((∑ k : Fin 1024, xH (ix3 a p k) * W (ix2 k f)) + ∑ k : Fin 512, xZ (ix3 a p k) * R (ix2 k f)) + bb (ix2 (0 : Fin 1) f)

/-- The point's gate is the whole arrays' gate at batch row b when the blocks are rows of the arrays there, the weight
    blocks the weights, and the bias row the two biases added. -/
theorem blkGate_eq_gate (xH : FVec Ideal S2x64x1024 .f32) (xZ : FVec Ideal S2x64x512 .f32) (W : FVec Ideal S1024x1024 .bf16)
    (R : FVec Ideal S512x1024 .bf16) (bb : FVec Ideal S1x1024 .f32)
    (H : SX.Idx → EReal) (Z : SZ.Idx → EReal) (W' : SW.Idx → EReal) (R' : SR.Idx → EReal) (bw br : SB.Idx → EReal)
    (b : Fin 256) (a : Fin 2) (p : Fin 64) (f : Fin 1024)
    (hH : ∀ k : Fin 1024, xH (ix3 a p k) = H (ix3 b p k)) (hZ : ∀ k : Fin 512, xZ (ix3 a p k) = Z (ix3 b p k))
    (hW : ∀ k : Fin 1024, W (ix2 k f) = W' (ix2 k f)) (hR : ∀ k : Fin 512, R (ix2 k f) = R' (ix2 k f))
    (hb : bb (ix2 (0 : Fin 1) f) = bw (ix1 f) + br (ix1 f)) :
    blkGate xH xZ W R bb a p f = gate H Z W' R' bw br b p f := by
  unfold blkGate gate
  rw [hb]
  have e1 : (∑ k : Fin 1024, xH (ix3 a p k) * W (ix2 k f)) = ∑ k : Fin 1024, H (ix3 b p k) * W' (ix2 k f) :=
    Finset.sum_congr rfl fun k _ => by rw [hH k, hW k]
  have e2 : (∑ k : Fin 512, xZ (ix3 a p k) * R (ix2 k f)) = ∑ k : Fin 512, Z (ix3 b p k) * R' (ix2 k f) :=
    Finset.sum_congr rfl fun k _ => by rw [hZ k, hR k]
  rw [e1, e2]

/-! ## The four pre-activations as the body computes them -/

theorem preI_apply (xH : FVec Ideal S2x64x1024 .f32) (xZ : FVec Ideal S2x64x512 .f32) (W : FVec Ideal S1024x1024 .bf16)
    (R : FVec Ideal S512x1024 .bf16) (bb : FVec Ideal S1x1024 .f32) (a : Fin 2) (p : Fin 64) (f : Fin 1024) :
    k0_pay6 (F := Ideal) xH xZ W R bb (ix3 a p f) = blkGate xH xZ W R bb a p f := by
  unfold k0_pay6 k0_pay4 k0_pay5
  exact Cert.BlockGate.gate_block_apply _ rfl rfl rfl rfl rfl rfl rfl rfl _ rfl rfl rfl rfl rfl rfl rfl rfl xH xZ W R bb _ _ _ _ _ _ _ _ a p f

theorem preF_apply (xH : FVec Ideal S2x64x1024 .f32) (xZ : FVec Ideal S2x64x512 .f32) (W : FVec Ideal S1024x1024 .bf16)
    (R : FVec Ideal S512x1024 .bf16) (bb : FVec Ideal S1x1024 .f32) (a : Fin 2) (p : Fin 64) (f : Fin 1024) :
    k0_pay7 (F := Ideal) xH xZ W R bb (ix3 a p f) = blkGate xH xZ W R bb a p f := by
  unfold k0_pay7 k0_pay4 k0_pay5
  exact Cert.BlockGate.gate_block_apply _ rfl rfl rfl rfl rfl rfl rfl rfl _ rfl rfl rfl rfl rfl rfl rfl rfl xH xZ W R bb _ _ _ _ _ _ _ _ a p f

theorem preO_apply (xH : FVec Ideal S2x64x1024 .f32) (xZ : FVec Ideal S2x64x512 .f32) (W : FVec Ideal S1024x1024 .bf16)
    (R : FVec Ideal S512x1024 .bf16) (bb : FVec Ideal S1x1024 .f32) (a : Fin 2) (p : Fin 64) (f : Fin 1024) :
    k0_pay9 (F := Ideal) (k0_pay5 xZ) (k0_pay8 xH W) R bb (ix3 a p f) = blkGate xH xZ W R bb a p f := by
  unfold k0_pay9 k0_pay8 k0_pay4 k0_pay5
  exact Cert.BlockGate.gate_block_apply _ rfl rfl rfl rfl rfl rfl rfl rfl _ rfl rfl rfl rfl rfl rfl rfl rfl xH xZ W R bb _ _ _ _ _ _ _ _ a p f

theorem preZ_apply (xH : FVec Ideal S2x64x1024 .f32) (xZ : FVec Ideal S2x64x512 .f32) (W : FVec Ideal S1024x1024 .bf16)
    (R : FVec Ideal S512x1024 .bf16) (bb : FVec Ideal S1x1024 .f32) (a : Fin 2) (p : Fin 64) (f : Fin 1024) :
    k0_pay10 (F := Ideal) (k0_pay4 xH) (k0_pay5 xZ) W R bb (ix3 a p f) = blkGate xH xZ W R bb a p f := by
  unfold k0_pay10 k0_pay4 k0_pay5
  exact Cert.BlockGate.gate_block_apply _ rfl rfl rfl rfl rfl rfl rfl rfl _ rfl rfl rfl rfl rfl rfl rfl rfl xH xZ W R bb _ _ _ _ _ _ _ _ a p f

/-! ## The pointwise update over given pre-activations -/

/-- The new stabilizer. -/
theorem stab_apply (vI vF xM : FVec Ideal S2x64x1024 .f32) (j : S2x64x1024.Idx) :
    k0_pay11 (F := Ideal) vI vF xM j = mNew (vI j) (vF j) (xM j) := rfl

/-- The new normalizer. -/
theorem norm_apply (vI vF xM xN : FVec Ideal S2x64x1024 .f32) (j : S2x64x1024.Idx) :
    k0_pay1 (F := Ideal) xN (k0_pay12 vI vF xM) (k0_pay13 vI vF xM) j = nNew (vI j) (vF j) (xM j) (xN j) := rfl

/-- The new cell state. -/
theorem cell_apply (vI vF vZ xM xC : FVec Ideal S2x64x1024 .f32) (xk : FVec Ideal S2x64x1 .f32) (a : Fin 2) (p : Fin 64) (f : Fin 1024) :
    k0_pay2 (F := Ideal) vZ xC xk (k0_pay12 vI vF xM) (k0_pay13 vI vF xM) (ix3 a p f)
      = cNew (vI (ix3 a p f)) (vF (ix3 a p f)) (vZ (ix3 a p f)) (xM (ix3 a p f)) (xC (ix3 a p f)) (xk (ix3 a p (0 : Fin 1))) := by
  have h1 := Cert.BlockGate.keep_bcast_apply xk broadcasts_S2x64x1_S2x64x1024 a p f
  have h2 := Cert.BlockGate.keep_bcast_apply (subf (broadcast S2x64x1 (Scalar.ofBits (F := Ideal) .f32 0x3F800000#32)) xk)
    broadcasts_S2x64x1_S2x64x1024 a p f
  unfold k0_pay2
  show (_ + _) * broadcastTo S2x64x1024 xk broadcasts_S2x64x1_S2x64x1024 (ix3 a p f)
      + broadcastTo S2x64x1024 (subf (broadcast S2x64x1 (Scalar.ofBits (F := Ideal) .f32 0x3F800000#32)) xk) broadcasts_S2x64x1_S2x64x1024 (ix3 a p f) * _ = _
  rw [h1, h2]
  rfl

/-- The new hidden state. -/
theorem hid_apply (vI vF vO vZ xM xC xN xH : FVec Ideal S2x64x1024 .f32) (xk : FVec Ideal S2x64x1 .f32) (a : Fin 2) (p : Fin 64) (f : Fin 1024) :
    k0_pay3 (F := Ideal) vO vZ xC xN xH xk (k0_pay12 vI vF xM) (k0_pay13 vI vF xM) (ix3 a p f)
      = hNew (vI (ix3 a p f)) (vF (ix3 a p f)) (vO (ix3 a p f)) (vZ (ix3 a p f)) (xM (ix3 a p f)) (xC (ix3 a p f)) (xN (ix3 a p f))
          (xH (ix3 a p f)) (xk (ix3 a p (0 : Fin 1))) := by
  have h1 := Cert.BlockGate.keep_bcast_apply xk broadcasts_S2x64x1_S2x64x1024 a p f
  have h2 := Cert.BlockGate.keep_bcast_apply (subf (broadcast S2x64x1 (Scalar.ofBits (F := Ideal) .f32 0x3F800000#32)) xk)
    broadcasts_S2x64x1_S2x64x1024 a p f
  have hc := cell_apply vI vF vZ xM xC xk a p f
  have hn := norm_apply vI vF xM xN (ix3 a p f)
  unfold k0_pay3
  show Ideal.logistic (vO (ix3 a p f)) * Ideal.div (k0_pay2 vZ xC xk (k0_pay12 vI vF xM) (k0_pay13 vI vF xM) (ix3 a p f))
        (k0_pay1 xN (k0_pay12 vI vF xM) (k0_pay13 vI vF xM) (ix3 a p f))
        * broadcastTo S2x64x1024 xk broadcasts_S2x64x1_S2x64x1024 (ix3 a p f)
      + broadcastTo S2x64x1024 (subf (broadcast S2x64x1 (Scalar.ofBits (F := Ideal) .f32 0x3F800000#32)) xk) broadcasts_S2x64x1_S2x64x1024 (ix3 a p f) * _ = _
  rw [h1, h2, hc, hn]
  rfl

/-! ## The four output blocks of a point -/

theorem hz : (![0, 0, 0] : Fin 3 → Nat) = fun _ => 0 := funext fun a => by fin_cases a <;> rfl
theorem hz2 : (![0, 0] : Fin 2 → Nat) = fun _ => 0 := funext fun a => by fin_cases a <;> rfl

section blocks
variable (x0 : FVec Ideal S2x64x512 .f32) (x1 x2 x3 x4 : FVec Ideal S2x64x1024 .f32) (x5 : FVec Ideal S2x64x1 .f32)
  (x6 x7 x8 x9 : FVec Ideal S1024x1024 .bf16) (x10 x11 x12 x13 : FVec Ideal S512x1024 .bf16) (x14 x15 x16 x17 : FVec Ideal S1x1024 .f32)
  (a : Fin 2) (p : Fin 64) (f : Fin 1024)

/-- The cell-state block. -/
theorem outC_apply : out0_18 (F := Ideal) x0 x1 x2 x3 x4 x5 x6 x7 x8 x9 x10 x11 x12 x13 x14 x15 x16 x17 (ix3 a p f)
    = cNew (blkGate x1 x0 x6 x10 x14 a p f) (blkGate x1 x0 x7 x11 x15 a p f) (blkGate x1 x0 x9 x13 x17 a p f)
        (x3 (ix3 a p f)) (x2 (ix3 a p f)) (x5 (ix3 a p (0 : Fin 1))) := by
  unfold out0_18
  rw [View.canon_unit_zero hz]
  simp only [View.ld_unit_zero (S := S2x64x1024) hz, View.ld_unit_zero (S := S2x64x512) hz, View.ld_unit_zero (S := S2x64x1) hz,
    View.ld_unit_zero (S := S1024x1024) hz2, View.ld_unit_zero (S := S512x1024) hz2, View.ld_unit_zero (S := S1x1024) hz2]
  rw [cell_apply, preI_apply, preF_apply, preZ_apply]

/-- The stabilizer block. -/
theorem outM_apply : out0_19 (F := Ideal) x0 x1 x2 x3 x4 x5 x6 x7 x8 x9 x10 x11 x12 x13 x14 x15 x16 x17 (ix3 a p f)
    = mNew (blkGate x1 x0 x6 x10 x14 a p f) (blkGate x1 x0 x7 x11 x15 a p f) (x3 (ix3 a p f)) := by
  unfold out0_19
  rw [View.canon_unit_zero hz]
  simp only [View.ld_unit_zero (S := S2x64x1024) hz, View.ld_unit_zero (S := S2x64x512) hz, View.ld_unit_zero (S := S2x64x1) hz,
    View.ld_unit_zero (S := S1024x1024) hz2, View.ld_unit_zero (S := S512x1024) hz2, View.ld_unit_zero (S := S1x1024) hz2]
  rw [stab_apply, preI_apply, preF_apply]

/-- The hidden-state block. -/
theorem outH_apply : out0_20 (F := Ideal) x0 x1 x2 x3 x4 x5 x6 x7 x8 x9 x10 x11 x12 x13 x14 x15 x16 x17 (ix3 a p f)
    = hNew (blkGate x1 x0 x6 x10 x14 a p f) (blkGate x1 x0 x7 x11 x15 a p f) (blkGate x1 x0 x8 x12 x16 a p f)
        (blkGate x1 x0 x9 x13 x17 a p f) (x3 (ix3 a p f)) (x2 (ix3 a p f)) (x4 (ix3 a p f)) (x1 (ix3 a p f)) (x5 (ix3 a p (0 : Fin 1))) := by
  unfold out0_20
  rw [View.canon_unit_zero hz]
  simp only [View.ld_unit_zero (S := S2x64x1024) hz, View.ld_unit_zero (S := S2x64x512) hz, View.ld_unit_zero (S := S2x64x1) hz,
    View.ld_unit_zero (S := S1024x1024) hz2, View.ld_unit_zero (S := S512x1024) hz2, View.ld_unit_zero (S := S1x1024) hz2]
  rw [hid_apply, preI_apply, preF_apply, preO_apply, preZ_apply]

/-- The normalizer block. -/
theorem outN_apply : out0_21 (F := Ideal) x0 x1 x2 x3 x4 x5 x6 x7 x8 x9 x10 x11 x12 x13 x14 x15 x16 x17 (ix3 a p f)
    = nNew (blkGate x1 x0 x6 x10 x14 a p f) (blkGate x1 x0 x7 x11 x15 a p f) (x3 (ix3 a p f)) (x4 (ix3 a p f)) := by
  unfold out0_21
  rw [View.canon_unit_zero hz]
  simp only [View.ld_unit_zero (S := S2x64x1024) hz, View.ld_unit_zero (S := S2x64x512) hz, View.ld_unit_zero (S := S2x64x1) hz,
    View.ld_unit_zero (S := S1024x1024) hz2, View.ld_unit_zero (S := S512x1024) hz2, View.ld_unit_zero (S := S1x1024) hz2]
  rw [norm_apply, preI_apply, preF_apply]

end blocks

end Cert.KernelCell

end
-- ==== Proof.KernelArray.lean ====
/-
  From the points' blocks to the four result arrays.

  The grid has 128 points; point t holds batch rows 2t and 2t + 1 of every blocked array and the weights and bias rows
  whole. Before the kernel the host narrows the eight weight matrices (the identity on extended reals) and adds each
  gate's two biases into one row. So at point t the gate computed from the blocks is the gate of Spec.lean at batch row
  2t + a, each output block is rows 2t, 2t + 1 of the corresponding result array of Spec.lean, and since the 128 blocks
  tile the 256 batch rows each result array ends holding that array whole.
-/
import proofs.«108904_j31688268710611_1_alg».proof.Proof.KernelIdealValue
import proofs.«108904_j31688268710611_1_alg».proof.Proof.KernelCell
import Idealize.ShloMosaic.Lib.Pipeline.Value
import Idealize.ShloMosaic.Lib.StableHlo.Run
import Idealize.ShloMosaic.Lib.Tactic

noncomputable section

open scoped BigOperators

namespace Cert.KernelArray

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.ValueP Cert.Cell Cert.KernelCell

variable (m : (ℓ : Loc nD τ sig) → Buf (Elt Ideal) ℓ) (ρ : Dev nD → PrngReg)

/-- The kernel's argument arrays on device c, as the cell's arguments. -/
def argsOf (c : Dev nD) : Args where
  Zi := m ((c : Thread nD τ).loc main_arg0)
  Ci := m ((c : Thread nD τ).loc main_arg1)
  Mi := m ((c : Thread nD τ).loc main_arg2)
  Hi := m ((c : Thread nD τ).loc main_arg3)
  Ni := m ((c : Thread nD τ).loc main_arg4)
  keep := m ((c : Thread nD τ).loc main_arg5)
  WI := m ((c : Thread nD τ).loc main_arg6)
  bWI := m ((c : Thread nD τ).loc main_arg7)
  WF := m ((c : Thread nD τ).loc main_arg8)
  bWF := m ((c : Thread nD τ).loc main_arg9)
  WO := m ((c : Thread nD τ).loc main_arg10)
  bWO := m ((c : Thread nD τ).loc main_arg11)
  WZ := m ((c : Thread nD τ).loc main_arg12)
  bWZ := m ((c : Thread nD τ).loc main_arg13)
  RI := m ((c : Thread nD τ).loc main_arg14)
  bRI := m ((c : Thread nD τ).loc main_arg15)
  RF := m ((c : Thread nD τ).loc main_arg16)
  bRF := m ((c : Thread nD τ).loc main_arg17)
  RO := m ((c : Thread nD τ).loc main_arg18)
  bRO := m ((c : Thread nD τ).loc main_arg19)
  RZ := m ((c : Thread nD τ).loc main_arg20)
  bRZ := m ((c : Thread nD τ).loc main_arg21)

/-- Batch row 2t + a: row a of point t's blocks. -/
def brow (t : Fin cfg0.N) (a : Fin 2) : Fin 256 :=
  ⟨2 * t.val + a.val, by have h := t.isLt; have hN : cfg0.N = 128 := N_0; have := a.isLt; omega⟩

/-! ## The index maps, decided over the 128 points: a blocked window is at block (t, 0, 0), a whole one at (0, 0) -/

theorem idxIn0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idxIn1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idxIn2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idxIn3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idxIn4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idxIn5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxW7 : ∀ t : Fin cfg0.N, win0_7.index t (0 : Fin 2) = 0 ∧ win0_7.index t (1 : Fin 2) = 0 :=
  (by decide +kernel : ∀ t : Fin grid0.N, _)
theorem idxW8 : ∀ t : Fin cfg0.N, win0_8.index t (0 : Fin 2) = 0 ∧ win0_8.index t (1 : Fin 2) = 0 :=
  (by decide +kernel : ∀ t : Fin grid0.N, _)
theorem idxW9 : ∀ t : Fin cfg0.N, win0_9.index t (0 : Fin 2) = 0 ∧ win0_9.index t (1 : Fin 2) = 0 :=
  (by decide +kernel : ∀ t : Fin grid0.N, _)
theorem idxW10 : ∀ t : Fin cfg0.N, win0_10.index t (0 : Fin 2) = 0 ∧ win0_10.index t (1 : Fin 2) = 0 :=
  (by decide +kernel : ∀ t : Fin grid0.N, _)
theorem idxW11 : ∀ t : Fin cfg0.N, win0_11.index t (0 : Fin 2) = 0 ∧ win0_11.index t (1 : Fin 2) = 0 :=
  (by decide +kernel : ∀ t : Fin grid0.N, _)
theorem idxW12 : ∀ t : Fin cfg0.N, win0_12.index t (0 : Fin 2) = 0 ∧ win0_12.index t (1 : Fin 2) = 0 :=
  (by decide +kernel : ∀ t : Fin grid0.N, _)
theorem idxW13 : ∀ t : Fin cfg0.N, win0_13.index t (0 : Fin 2) = 0 ∧ win0_13.index t (1 : Fin 2) = 0 :=
  (by decide +kernel : ∀ t : Fin grid0.N, _)
theorem idxW14 : ∀ t : Fin cfg0.N, win0_14.index t (0 : Fin 2) = 0 ∧ win0_14.index t (1 : Fin 2) = 0 :=
  (by decide +kernel : ∀ t : Fin grid0.N, _)
theorem idxW15 : ∀ t : Fin cfg0.N, win0_15.index t (0 : Fin 2) = 0 ∧ win0_15.index t (1 : Fin 2) = 0 :=
  (by decide +kernel : ∀ t : Fin grid0.N, _)
theorem idxW16 : ∀ t : Fin cfg0.N, win0_16.index t (0 : Fin 2) = 0 ∧ win0_16.index t (1 : Fin 2) = 0 :=
  (by decide +kernel : ∀ t : Fin grid0.N, _)
theorem idxW17 : ∀ t : Fin cfg0.N, win0_17.index t (0 : Fin 2) = 0 ∧ win0_17.index t (1 : Fin 2) = 0 :=
  (by decide +kernel : ∀ t : Fin grid0.N, _)
theorem idxOut18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idxOut19 : ∀ t : Fin cfg0.N, win0_19.index t (0 : Fin 3) = t.val ∧ win0_19.index t (1 : Fin 3) = 0 ∧ win0_19.index t (2 : Fin 3) = 0 :=
  (by decide +kernel : ∀ t : Fin grid0.N, _)
theorem idxOut20 : ∀ t : Fin cfg0.N, win0_20.index t (0 : Fin 3) = t.val ∧ win0_20.index t (1 : Fin 3) = 0 ∧ win0_20.index t (2 : Fin 3) = 0 :=
  (by decide +kernel : ∀ t : Fin grid0.N, _)
theorem idxOut21 : ∀ t : Fin cfg0.N, win0_21.index t (0 : Fin 3) = t.val ∧ win0_21.index t (1 : Fin 3) = 0 ∧ win0_21.index t (2 : Fin 3) = 0 :=
  (by decide +kernel : ∀ t : Fin grid0.N, _)

/-! ## The blocked inputs: row a of point t's block is batch row 2t + a of the array -/

/-- The input rows. -/
theorem blkZi_apply (c : Dev nD) (t : Fin cfg0.N) (a : Fin 2) (p : Fin 64) (k : Fin 512) :
    (iblk m c 0 t : FVec Ideal S2x64x512 .f32) (ix3 a p k) = (argsOf m c).Zi (ix3 (brow t a) p k) := by
  obtain ⟨h0, h1, h2⟩ := idxIn0 t
  unfold iblk
  rw [View.read_apply]
  show V m c main_arg0 _ = _
  rw [V_main_arg0]
  show m ((c : Thread nD τ).loc main_arg0) _ = m ((c : Thread nD τ).loc main_arg0) _
  congr 1
  funext ax; apply Fin.ext
  match ax with
  | ⟨0, _⟩ => show win0_0.index t 0 * 2 + 1 * a.val = 2 * t.val + a.val; rw [h0]; omega
  | ⟨1, _⟩ => show win0_0.index t 1 * 64 + 1 * p.val = p.val; rw [h1]; omega
  | ⟨2, _⟩ => show win0_0.index t 2 * 512 + 1 * k.val = k.val; rw [h2]; omega

/-- The old hidden state. -/
theorem blkHi_apply (c : Dev nD) (t : Fin cfg0.N) (a : Fin 2) (p : Fin 64) (k : Fin 1024) :
    (iblk m c 1 t : FVec Ideal S2x64x1024 .f32) (ix3 a p k) = (argsOf m c).Hi (ix3 (brow t a) p k) := by
  obtain ⟨h0, h1, h2⟩ := idxIn1 t
  unfold iblk
  rw [View.read_apply]
  show V m c main_arg3 _ = _
  rw [V_main_arg3]
  show m ((c : Thread nD τ).loc main_arg3) _ = m ((c : Thread nD τ).loc main_arg3) _
  congr 1
  funext ax; apply Fin.ext
  match ax with
  | ⟨0, _⟩ => show win0_1.index t 0 * 2 + 1 * a.val = 2 * t.val + a.val; rw [h0]; omega
  | ⟨1, _⟩ => show win0_1.index t 1 * 64 + 1 * p.val = p.val; rw [h1]; omega
  | ⟨2, _⟩ => show win0_1.index t 2 * 1024 + 1 * k.val = k.val; rw [h2]; omega

/-- The old cell state. -/
theorem blkCi_apply (c : Dev nD) (t : Fin cfg0.N) (a : Fin 2) (p : Fin 64) (k : Fin 1024) :
    (iblk m c 2 t : FVec Ideal S2x64x1024 .f32) (ix3 a p k) = (argsOf m c).Ci (ix3 (brow t a) p k) := by
  obtain ⟨h0, h1, h2⟩ := idxIn2 t
  unfold iblk
  rw [View.read_apply]
  show V m c main_arg1 _ = _
  rw [V_main_arg1]
  show m ((c : Thread nD τ).loc main_arg1) _ = m ((c : Thread nD τ).loc main_arg1) _
  congr 1
  funext ax; apply Fin.ext
  match ax with
  | ⟨0, _⟩ => show win0_2.index t 0 * 2 + 1 * a.val = 2 * t.val + a.val; rw [h0]; omega
  | ⟨1, _⟩ => show win0_2.index t 1 * 64 + 1 * p.val = p.val; rw [h1]; omega
  | ⟨2, _⟩ => show win0_2.index t 2 * 1024 + 1 * k.val = k.val; rw [h2]; omega

/-- The old stabilizer. -/
theorem blkMi_apply (c : Dev nD) (t : Fin cfg0.N) (a : Fin 2) (p : Fin 64) (k : Fin 1024) :
    (iblk m c 3 t : FVec Ideal S2x64x1024 .f32) (ix3 a p k) = (argsOf m c).Mi (ix3 (brow t a) p k) := by
  obtain ⟨h0, h1, h2⟩ := idxIn3 t
  unfold iblk
  rw [View.read_apply]
  show V m c main_arg2 _ = _
  rw [V_main_arg2]
  show m ((c : Thread nD τ).loc main_arg2) _ = m ((c : Thread nD τ).loc main_arg2) _
  congr 1
  funext ax; apply Fin.ext
  match ax with
  | ⟨0, _⟩ => show win0_3.index t 0 * 2 + 1 * a.val = 2 * t.val + a.val; rw [h0]; omega
  | ⟨1, _⟩ => show win0_3.index t 1 * 64 + 1 * p.val = p.val; rw [h1]; omega
  | ⟨2, _⟩ => show win0_3.index t 2 * 1024 + 1 * k.val = k.val; rw [h2]; omega

/-- The old normalizer. -/
theorem blkNi_apply (c : Dev nD) (t : Fin cfg0.N) (a : Fin 2) (p : Fin 64) (k : Fin 1024) :
    (iblk m c 4 t : FVec Ideal S2x64x1024 .f32) (ix3 a p k) = (argsOf m c).Ni (ix3 (brow t a) p k) := by
  obtain ⟨h0, h1, h2⟩ := idxIn4 t
  unfold iblk
  rw [View.read_apply]
  show V m c main_arg4 _ = _
  rw [V_main_arg4]
  show m ((c : Thread nD τ).loc main_arg4) _ = m ((c : Thread nD τ).loc main_arg4) _
  congr 1
  funext ax; apply Fin.ext
  match ax with
  | ⟨0, _⟩ => show win0_4.index t 0 * 2 + 1 * a.val = 2 * t.val + a.val; rw [h0]; omega
  | ⟨1, _⟩ => show win0_4.index t 1 * 64 + 1 * p.val = p.val; rw [h1]; omega
  | ⟨2, _⟩ => show win0_4.index t 2 * 1024 + 1 * k.val = k.val; rw [h2]; omega

/-- The keep mask. -/
theorem blkKeep_apply (c : Dev nD) (t : Fin cfg0.N) (a : Fin 2) (p : Fin 64) :
    (iblk m c 5 t : FVec Ideal S2x64x1 .f32) (ix3 a p (0 : Fin 1)) = (argsOf m c).keep (ix3 (brow t a) p (0 : Fin 1)) := by
  obtain ⟨h0, h1, h2⟩ := idxIn5 t
  unfold iblk
  rw [View.read_apply]
  show V m c main_arg5 _ = _
  rw [V_main_arg5]
  show m ((c : Thread nD τ).loc main_arg5) _ = m ((c : Thread nD τ).loc main_arg5) _
  congr 1
  funext ax; apply Fin.ext
  match ax with
  | ⟨0, _⟩ => show win0_5.index t 0 * 2 + 1 * a.val = 2 * t.val + a.val; rw [h0]; omega
  | ⟨1, _⟩ => show win0_5.index t 1 * 64 + 1 * p.val = p.val; rw [h1]; omega
  | ⟨2, _⟩ => show win0_5.index t 2 * 1 + 1 * 0 = 0; rw [h2]

/-! ## The weights and biases, held whole: the host narrowed each weight matrix and added each gate's two biases -/

/-- The hidden-to-input-gate weight. -/
theorem blkWI_apply (c : Dev nD) (t : Fin cfg0.N) (k : Fin 1024) (f : Fin 1024) :
    (iblk m c 6 t : FVec Ideal S1024x1024 .bf16) (ix2 k f) = (argsOf m c).WI (ix2 k f) := by
  obtain ⟨h0, h1⟩ := idxW6 t
  have e : @Eq (FVec Ideal S1024x1024 .bf16) (V m c main_v0)
      (truncf (F := Ideal) (s := S1024x1024) (φ := .f32) .bf16 (m ((c : Thread nD τ).loc main_arg6)) bitsLt_bf16_f32) := by
    dsimp only [Gen.V, Gen.hostOps0]; after_results
  unfold iblk
  rw [View.read_apply]
  show V m c main_v0 _ = _
  rw [e]
  show m ((c : Thread nD τ).loc main_arg6) _ = m ((c : Thread nD τ).loc main_arg6) _
  congr 1
  funext ax; apply Fin.ext
  match ax with
  | ⟨0, _⟩ => show win0_6.index t 0 * 1024 + 1 * k.val = k.val; rw [h0]; omega
  | ⟨1, _⟩ => show win0_6.index t 1 * 1024 + 1 * f.val = f.val; rw [h1]; omega

/-- The hidden-to-forget-gate weight. -/
theorem blkWF_apply (c : Dev nD) (t : Fin cfg0.N) (k : Fin 1024) (f : Fin 1024) :
    (iblk m c 7 t : FVec Ideal S1024x1024 .bf16) (ix2 k f) = (argsOf m c).WF (ix2 k f) := by
  obtain ⟨h0, h1⟩ := idxW7 t
  have e : @Eq (FVec Ideal S1024x1024 .bf16) (V m c main_v1)
      (truncf (F := Ideal) (s := S1024x1024) (φ := .f32) .bf16 (m ((c : Thread nD τ).loc main_arg8)) bitsLt_bf16_f32) := by
    dsimp only [Gen.V, Gen.hostOps0]; after_results
  unfold iblk
  rw [View.read_apply]
  show V m c main_v1 _ = _
  rw [e]
  show m ((c : Thread nD τ).loc main_arg8) _ = m ((c : Thread nD τ).loc main_arg8) _
  congr 1
  funext ax; apply Fin.ext
  match ax with
  | ⟨0, _⟩ => show win0_7.index t 0 * 1024 + 1 * k.val = k.val; rw [h0]; omega
  | ⟨1, _⟩ => show win0_7.index t 1 * 1024 + 1 * f.val = f.val; rw [h1]; omega

/-- The hidden-to-output-gate weight. -/
theorem blkWO_apply (c : Dev nD) (t : Fin cfg0.N) (k : Fin 1024) (f : Fin 1024) :
    (iblk m c 8 t : FVec Ideal S1024x1024 .bf16) (ix2 k f) = (argsOf m c).WO (ix2 k f) := by
  obtain ⟨h0, h1⟩ := idxW8 t
  have e : @Eq (FVec Ideal S1024x1024 .bf16) (V m c main_v2)
      (truncf (F := Ideal) (s := S1024x1024) (φ := .f32) .bf16 (m ((c : Thread nD τ).loc main_arg10)) bitsLt_bf16_f32) := by
    dsimp only [Gen.V, Gen.hostOps0]; after_results
  unfold iblk
  rw [View.read_apply]
  show V m c main_v2 _ = _
  rw [e]
  show m ((c : Thread nD τ).loc main_arg10) _ = m ((c : Thread nD τ).loc main_arg10) _
  congr 1
  funext ax; apply Fin.ext
  match ax with
  | ⟨0, _⟩ => show win0_8.index t 0 * 1024 + 1 * k.val = k.val; rw [h0]; omega
  | ⟨1, _⟩ => show win0_8.index t 1 * 1024 + 1 * f.val = f.val; rw [h1]; omega

/-- The hidden-to-candidate weight. -/
theorem blkWZ_apply (c : Dev nD) (t : Fin cfg0.N) (k : Fin 1024) (f : Fin 1024) :
    (iblk m c 9 t : FVec Ideal S1024x1024 .bf16) (ix2 k f) = (argsOf m c).WZ (ix2 k f) := by
  obtain ⟨h0, h1⟩ := idxW9 t
  have e : @Eq (FVec Ideal S1024x1024 .bf16) (V m c main_v3)
      (truncf (F := Ideal) (s := S1024x1024) (φ := .f32) .bf16 (m ((c : Thread nD τ).loc main_arg12)) bitsLt_bf16_f32) := by
    dsimp only [Gen.V, Gen.hostOps0]; after_results
  unfold iblk
  rw [View.read_apply]
  show V m c main_v3 _ = _
  rw [e]
  show m ((c : Thread nD τ).loc main_arg12) _ = m ((c : Thread nD τ).loc main_arg12) _
  congr 1
  funext ax; apply Fin.ext
  match ax with
  | ⟨0, _⟩ => show win0_9.index t 0 * 1024 + 1 * k.val = k.val; rw [h0]; omega
  | ⟨1, _⟩ => show win0_9.index t 1 * 1024 + 1 * f.val = f.val; rw [h1]; omega

/-- The input-to-input-gate weight. -/
theorem blkRI_apply (c : Dev nD) (t : Fin cfg0.N) (k : Fin 512) (f : Fin 1024) :
    (iblk m c 10 t : FVec Ideal S512x1024 .bf16) (ix2 k f) = (argsOf m c).RI (ix2 k f) := by
  obtain ⟨h0, h1⟩ := idxW10 t
  have e : @Eq (FVec Ideal S512x1024 .bf16) (V m c main_v4)
      (truncf (F := Ideal) (s := S512x1024) (φ := .f32) .bf16 (m ((c : Thread nD τ).loc main_arg14)) bitsLt_bf16_f32) := by
    dsimp only [Gen.V, Gen.hostOps0]; after_results
  unfold iblk
  rw [View.read_apply]
  show V m c main_v4 _ = _
  rw [e]
  show m ((c : Thread nD τ).loc main_arg14) _ = m ((c : Thread nD τ).loc main_arg14) _
  congr 1
  funext ax; apply Fin.ext
  match ax with
  | ⟨0, _⟩ => show win0_10.index t 0 * 512 + 1 * k.val = k.val; rw [h0]; omega
  | ⟨1, _⟩ => show win0_10.index t 1 * 1024 + 1 * f.val = f.val; rw [h1]; omega

/-- The input-to-forget-gate weight. -/
theorem blkRF_apply (c : Dev nD) (t : Fin cfg0.N) (k : Fin 512) (f : Fin 1024) :
    (iblk m c 11 t : FVec Ideal S512x1024 .bf16) (ix2 k f) = (argsOf m c).RF (ix2 k f) := by
  obtain ⟨h0, h1⟩ := idxW11 t
  have e : @Eq (FVec Ideal S512x1024 .bf16) (V m c main_v5)
      (truncf (F := Ideal) (s := S512x1024) (φ := .f32) .bf16 (m ((c : Thread nD τ).loc main_arg16)) bitsLt_bf16_f32) := by
    dsimp only [Gen.V, Gen.hostOps0]; after_results
  unfold iblk
  rw [View.read_apply]
  show V m c main_v5 _ = _
  rw [e]
  show m ((c : Thread nD τ).loc main_arg16) _ = m ((c : Thread nD τ).loc main_arg16) _
  congr 1
  funext ax; apply Fin.ext
  match ax with
  | ⟨0, _⟩ => show win0_11.index t 0 * 512 + 1 * k.val = k.val; rw [h0]; omega
  | ⟨1, _⟩ => show win0_11.index t 1 * 1024 + 1 * f.val = f.val; rw [h1]; omega

/-- The input-to-output-gate weight. -/
theorem blkRO_apply (c : Dev nD) (t : Fin cfg0.N) (k : Fin 512) (f : Fin 1024) :
    (iblk m c 12 t : FVec Ideal S512x1024 .bf16) (ix2 k f) = (argsOf m c).RO (ix2 k f) := by
  obtain ⟨h0, h1⟩ := idxW12 t
  have e : @Eq (FVec Ideal S512x1024 .bf16) (V m c main_v6)
      (truncf (F := Ideal) (s := S512x1024) (φ := .f32) .bf16 (m ((c : Thread nD τ).loc main_arg18)) bitsLt_bf16_f32) := by
    dsimp only [Gen.V, Gen.hostOps0]; after_results
  unfold iblk
  rw [View.read_apply]
  show V m c main_v6 _ = _
  rw [e]
  show m ((c : Thread nD τ).loc main_arg18) _ = m ((c : Thread nD τ).loc main_arg18) _
  congr 1
  funext ax; apply Fin.ext
  match ax with
  | ⟨0, _⟩ => show win0_12.index t 0 * 512 + 1 * k.val = k.val; rw [h0]; omega
  | ⟨1, _⟩ => show win0_12.index t 1 * 1024 + 1 * f.val = f.val; rw [h1]; omega

/-- The input-to-candidate weight. -/
theorem blkRZ_apply (c : Dev nD) (t : Fin cfg0.N) (k : Fin 512) (f : Fin 1024) :
    (iblk m c 13 t : FVec Ideal S512x1024 .bf16) (ix2 k f) = (argsOf m c).RZ (ix2 k f) := by
  obtain ⟨h0, h1⟩ := idxW13 t
  have e : @Eq (FVec Ideal S512x1024 .bf16) (V m c main_v7)
      (truncf (F := Ideal) (s := S512x1024) (φ := .f32) .bf16 (m ((c : Thread nD τ).loc main_arg20)) bitsLt_bf16_f32) := by
    dsimp only [Gen.V, Gen.hostOps0]; after_results
  unfold iblk
  rw [View.read_apply]
  show V m c main_v7 _ = _
  rw [e]
  show m ((c : Thread nD τ).loc main_arg20) _ = m ((c : Thread nD τ).loc main_arg20) _
  congr 1
  funext ax; apply Fin.ext
  match ax with
  | ⟨0, _⟩ => show win0_13.index t 0 * 512 + 1 * k.val = k.val; rw [h0]; omega
  | ⟨1, _⟩ => show win0_13.index t 1 * 1024 + 1 * f.val = f.val; rw [h1]; omega

/-- The input gate's bias row: its two biases added. -/
theorem blkBI_apply (c : Dev nD) (t : Fin cfg0.N) (f : Fin 1024) :
    (iblk m c 14 t : FVec Ideal S1x1024 .f32) (ix2 (0 : Fin 1) f) = (argsOf m c).bWI (ix1 f) + (argsOf m c).bRI (ix1 f) := by
  obtain ⟨h0, h1⟩ := idxW14 t
  have e : @Eq (FVec Ideal S1x1024 .f32) (V m c main_v9)
      (shapeCast S1x1024 (addf (F := Ideal) (s := S1024) (φ := .f32) (m ((c : Thread nD τ).loc main_arg7)) (m ((c : Thread nD τ).loc main_arg15)))
        shapeCasts_S1024_S1x1024) := by
    dsimp only [Gen.V, Gen.hostOps0]; after_results; rfl
  unfold iblk
  rw [View.read_apply]
  show V m c main_v9 _ = _
  rw [e]
  refine (shapeCast_apply _ _ _ (ix1 f) ?_).trans rfl
  rw [Shape.rowMajor_val_one, Shape.rowMajor_val_two]
  show f.val = (win0_14.index t 0 * 1 + 1 * 0) * 1024 + (win0_14.index t 1 * 1024 + 1 * f.val)
  rw [h0, h1]; omega

/-- The forget gate's bias row. -/
theorem blkBF_apply (c : Dev nD) (t : Fin cfg0.N) (f : Fin 1024) :
    (iblk m c 15 t : FVec Ideal S1x1024 .f32) (ix2 (0 : Fin 1) f) = (argsOf m c).bWF (ix1 f) + (argsOf m c).bRF (ix1 f) := by
  obtain ⟨h0, h1⟩ := idxW15 t
  have e : @Eq (FVec Ideal S1x1024 .f32) (V m c main_v11)
      (shapeCast S1x1024 (addf (F := Ideal) (s := S1024) (φ := .f32) (m ((c : Thread nD τ).loc main_arg9)) (m ((c : Thread nD τ).loc main_arg17)))
        shapeCasts_S1024_S1x1024) := by
    dsimp only [Gen.V, Gen.hostOps0]; after_results; rfl
  unfold iblk
  rw [View.read_apply]
  show V m c main_v11 _ = _
  rw [e]
  refine (shapeCast_apply _ _ _ (ix1 f) ?_).trans rfl
  rw [Shape.rowMajor_val_one, Shape.rowMajor_val_two]
  show f.val = (win0_15.index t 0 * 1 + 1 * 0) * 1024 + (win0_15.index t 1 * 1024 + 1 * f.val)
  rw [h0, h1]; omega

/-- The output gate's bias row. -/
theorem blkBO_apply (c : Dev nD) (t : Fin cfg0.N) (f : Fin 1024) :
    (iblk m c 16 t : FVec Ideal S1x1024 .f32) (ix2 (0 : Fin 1) f) = (argsOf m c).bWO (ix1 f) + (argsOf m c).bRO (ix1 f) := by
  obtain ⟨h0, h1⟩ := idxW16 t
  have e : @Eq (FVec Ideal S1x1024 .f32) (V m c main_v13)
      (shapeCast S1x1024 (addf (F := Ideal) (s := S1024) (φ := .f32) (m ((c : Thread nD τ).loc main_arg11)) (m ((c : Thread nD τ).loc main_arg19)))
        shapeCasts_S1024_S1x1024) := by
    dsimp only [Gen.V, Gen.hostOps0]; after_results; rfl
  unfold iblk
  rw [View.read_apply]
  show V m c main_v13 _ = _
  rw [e]
  refine (shapeCast_apply _ _ _ (ix1 f) ?_).trans rfl
  rw [Shape.rowMajor_val_one, Shape.rowMajor_val_two]
  show f.val = (win0_16.index t 0 * 1 + 1 * 0) * 1024 + (win0_16.index t 1 * 1024 + 1 * f.val)
  rw [h0, h1]; omega

/-- The candidate's bias row. -/
theorem blkBZ_apply (c : Dev nD) (t : Fin cfg0.N) (f : Fin 1024) :
    (iblk m c 17 t : FVec Ideal S1x1024 .f32) (ix2 (0 : Fin 1) f) = (argsOf m c).bWZ (ix1 f) + (argsOf m c).bRZ (ix1 f) := by
  obtain ⟨h0, h1⟩ := idxW17 t
  have e : @Eq (FVec Ideal S1x1024 .f32) (V m c main_v15)
      (shapeCast S1x1024 (addf (F := Ideal) (s := S1024) (φ := .f32) (m ((c : Thread nD τ).loc main_arg13)) (m ((c : Thread nD τ).loc main_arg21)))
        shapeCasts_S1024_S1x1024) := by
    dsimp only [Gen.V, Gen.hostOps0]; after_results; rfl
  unfold iblk
  rw [View.read_apply]
  show V m c main_v15 _ = _
  rw [e]
  refine (shapeCast_apply _ _ _ (ix1 f) ?_).trans rfl
  rw [Shape.rowMajor_val_one, Shape.rowMajor_val_two]
  show f.val = (win0_17.index t 0 * 1 + 1 * 0) * 1024 + (win0_17.index t 1 * 1024 + 1 * f.val)
  rw [h0, h1]; omega

/-! ## The point's gates are the arrays' gates at batch row 2t + a -/

theorem gateI_eq (c : Dev nD) (t : Fin cfg0.N) (a : Fin 2) (p : Fin 64) (f : Fin 1024) :
    blkGate (iblk m c 1 t) (iblk m c 0 t) (iblk m c 6 t) (iblk m c 10 t) (iblk m c 14 t) a p f = (argsOf m c).preI (brow t a) p f :=
  blkGate_eq_gate (iblk m c 1 t) (iblk m c 0 t) (iblk m c 6 t) (iblk m c 10 t) (iblk m c 14 t)
    (argsOf m c).Hi (argsOf m c).Zi (argsOf m c).WI (argsOf m c).RI (argsOf m c).bWI (argsOf m c).bRI (brow t a) a p f
    (fun k => blkHi_apply m c t a p k) (fun k => blkZi_apply m c t a p k) (fun k => blkWI_apply m c t k f)
    (fun k => blkRI_apply m c t k f) (blkBI_apply m c t f)

theorem gateF_eq (c : Dev nD) (t : Fin cfg0.N) (a : Fin 2) (p : Fin 64) (f : Fin 1024) :
    blkGate (iblk m c 1 t) (iblk m c 0 t) (iblk m c 7 t) (iblk m c 11 t) (iblk m c 15 t) a p f = (argsOf m c).preF (brow t a) p f :=
  blkGate_eq_gate (iblk m c 1 t) (iblk m c 0 t) (iblk m c 7 t) (iblk m c 11 t) (iblk m c 15 t)
    (argsOf m c).Hi (argsOf m c).Zi (argsOf m c).WF (argsOf m c).RF (argsOf m c).bWF (argsOf m c).bRF (brow t a) a p f
    (fun k => blkHi_apply m c t a p k) (fun k => blkZi_apply m c t a p k) (fun k => blkWF_apply m c t k f)
    (fun k => blkRF_apply m c t k f) (blkBF_apply m c t f)

theorem gateO_eq (c : Dev nD) (t : Fin cfg0.N) (a : Fin 2) (p : Fin 64) (f : Fin 1024) :
    blkGate (iblk m c 1 t) (iblk m c 0 t) (iblk m c 8 t) (iblk m c 12 t) (iblk m c 16 t) a p f = (argsOf m c).preO (brow t a) p f :=
  blkGate_eq_gate (iblk m c 1 t) (iblk m c 0 t) (iblk m c 8 t) (iblk m c 12 t) (iblk m c 16 t)
    (argsOf m c).Hi (argsOf m c).Zi (argsOf m c).WO (argsOf m c).RO (argsOf m c).bWO (argsOf m c).bRO (brow t a) a p f
    (fun k => blkHi_apply m c t a p k) (fun k => blkZi_apply m c t a p k) (fun k => blkWO_apply m c t k f)
    (fun k => blkRO_apply m c t k f) (blkBO_apply m c t f)

theorem gateZ_eq (c : Dev nD) (t : Fin cfg0.N) (a : Fin 2) (p : Fin 64) (f : Fin 1024) :
    blkGate (iblk m c 1 t) (iblk m c 0 t) (iblk m c 9 t) (iblk m c 13 t) (iblk m c 17 t) a p f = (argsOf m c).preZ (brow t a) p f :=
  blkGate_eq_gate (iblk m c 1 t) (iblk m c 0 t) (iblk m c 9 t) (iblk m c 13 t) (iblk m c 17 t)
    (argsOf m c).Hi (argsOf m c).Zi (argsOf m c).WZ (argsOf m c).RZ (argsOf m c).bWZ (argsOf m c).bRZ (brow t a) a p f
    (fun k => blkHi_apply m c t a p k) (fun k => blkZi_apply m c t a p k) (fun k => blkWZ_apply m c t k f)
    (fun k => blkRZ_apply m c t k f) (blkBZ_apply m c t f)

/-! ## What point t leaves in each output block is rows 2t, 2t + 1 of the result array -/

theorem pointC (c : Dev nD) (t : Fin cfg0.N) (a : Fin 2) (p : Fin 64) (f : Fin 1024) :
    out0_18 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (ix3 a p f)
      = (argsOf m c).outC (ix3 (brow t a) p f) := by
  refine (outC_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) a p f).trans ?_
  rw [gateI_eq m c t a p f, gateF_eq m c t a p f, gateZ_eq m c t a p f, blkMi_apply m c t a p f, blkCi_apply m c t a p f,
    blkKeep_apply m c t a p]
  rfl

theorem pointM (c : Dev nD) (t : Fin cfg0.N) (a : Fin 2) (p : Fin 64) (f : Fin 1024) :
    out0_19 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (ix3 a p f)
      = (argsOf m c).outM (ix3 (brow t a) p f) := by
  refine (outM_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) a p f).trans ?_
  rw [gateI_eq m c t a p f, gateF_eq m c t a p f, blkMi_apply m c t a p f]
  rfl

theorem pointH (c : Dev nD) (t : Fin cfg0.N) (a : Fin 2) (p : Fin 64) (f : Fin 1024) :
    out0_20 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (ix3 a p f)
      = (argsOf m c).outH (ix3 (brow t a) p f) := by
  refine (outH_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) a p f).trans ?_
  rw [gateI_eq m c t a p f, gateF_eq m c t a p f, gateO_eq m c t a p f, gateZ_eq m c t a p f, blkMi_apply m c t a p f,
    blkCi_apply m c t a p f, blkNi_apply m c t a p f, blkHi_apply m c t a p f, blkKeep_apply m c t a p]
  rfl

theorem pointN (c : Dev nD) (t : Fin cfg0.N) (a : Fin 2) (p : Fin 64) (f : Fin 1024) :
    out0_21 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (ix3 a p f)
      = (argsOf m c).outN (ix3 (brow t a) p f) := by
  refine (outN_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) a p f).trans ?_
  rw [gateI_eq m c t a p f, gateF_eq m c t a p f, blkMi_apply m c t a p f, blkNi_apply m c t a p f]
  rfl

/-! ## An index of an output block is the array's index at batch row 2t + a -/

theorem embC (t : Fin cfg0.N) (a : Fin 2) (p : Fin 64) (f : Fin 1024) :
    ((cfg0.win 18).blk t).view.emb (ix3 a p f) = ix3 (brow t a) p f := by
  obtain ⟨h0, h1, h2⟩ := idxOut18 t
  funext ax; apply Fin.ext
  match ax with
  | ⟨0, _⟩ => show win0_18.index t 0 * 2 + 1 * a.val = 2 * t.val + a.val; rw [h0]; omega
  | ⟨1, _⟩ => show win0_18.index t 1 * 64 + 1 * p.val = p.val; rw [h1]; omega
  | ⟨2, _⟩ => show win0_18.index t 2 * 1024 + 1 * f.val = f.val; rw [h2]; omega

theorem embM (t : Fin cfg0.N) (a : Fin 2) (p : Fin 64) (f : Fin 1024) :
    ((cfg0.win 19).blk t).view.emb (ix3 a p f) = ix3 (brow t a) p f := by
  obtain ⟨h0, h1, h2⟩ := idxOut19 t
  funext ax; apply Fin.ext
  match ax with
  | ⟨0, _⟩ => show win0_19.index t 0 * 2 + 1 * a.val = 2 * t.val + a.val; rw [h0]; omega
  | ⟨1, _⟩ => show win0_19.index t 1 * 64 + 1 * p.val = p.val; rw [h1]; omega
  | ⟨2, _⟩ => show win0_19.index t 2 * 1024 + 1 * f.val = f.val; rw [h2]; omega

theorem embH (t : Fin cfg0.N) (a : Fin 2) (p : Fin 64) (f : Fin 1024) :
    ((cfg0.win 20).blk t).view.emb (ix3 a p f) = ix3 (brow t a) p f := by
  obtain ⟨h0, h1, h2⟩ := idxOut20 t
  funext ax; apply Fin.ext
  match ax with
  | ⟨0, _⟩ => show win0_20.index t 0 * 2 + 1 * a.val = 2 * t.val + a.val; rw [h0]; omega
  | ⟨1, _⟩ => show win0_20.index t 1 * 64 + 1 * p.val = p.val; rw [h1]; omega
  | ⟨2, _⟩ => show win0_20.index t 2 * 1024 + 1 * f.val = f.val; rw [h2]; omega

theorem embN (t : Fin cfg0.N) (a : Fin 2) (p : Fin 64) (f : Fin 1024) :
    ((cfg0.win 21).blk t).view.emb (ix3 a p f) = ix3 (brow t a) p f := by
  obtain ⟨h0, h1, h2⟩ := idxOut21 t
  funext ax; apply Fin.ext
  match ax with
  | ⟨0, _⟩ => show win0_21.index t 0 * 2 + 1 * a.val = 2 * t.val + a.val; rw [h0]; omega
  | ⟨1, _⟩ => show win0_21.index t 1 * 64 + 1 * p.val = p.val; rw [h1]; omega
  | ⟨2, _⟩ => show win0_21.index t 2 * 1024 + 1 * f.val = f.val; rw [h2]; omega

/-! ## What point t writes back is block t of the result array -/

theorem flushedC_eq (c : Dev nD) (t : Fin cfg0.N) :
    (dats m 0 c).flushed 18 t = ((cfg0.win 18).blk t).view.read (Elt Ideal) ((argsOf m c).outC) := by
  rw [flushed18]
  funext j
  obtain ⟨a, p, f, rfl⟩ : ∃ (a : Fin 2) (p : Fin 64) (f : Fin 1024), j = ix3 a p f := ⟨j 0, j 1, j 2, eq_ix3 j⟩
  rw [View.read_apply, embC]
  exact pointC m c t a p f

theorem flushedM_eq (c : Dev nD) (t : Fin cfg0.N) :
    (dats m 0 c).flushed 19 t = ((cfg0.win 19).blk t).view.read (Elt Ideal) ((argsOf m c).outM) := by
  rw [flushed19]
  funext j
  obtain ⟨a, p, f, rfl⟩ : ∃ (a : Fin 2) (p : Fin 64) (f : Fin 1024), j = ix3 a p f := ⟨j 0, j 1, j 2, eq_ix3 j⟩
  rw [View.read_apply, embM]
  exact pointM m c t a p f

theorem flushedH_eq (c : Dev nD) (t : Fin cfg0.N) :
    (dats m 0 c).flushed 20 t = ((cfg0.win 20).blk t).view.read (Elt Ideal) ((argsOf m c).outH) := by
  rw [flushed20]
  funext j
  obtain ⟨a, p, f, rfl⟩ : ∃ (a : Fin 2) (p : Fin 64) (f : Fin 1024), j = ix3 a p f := ⟨j 0, j 1, j 2, eq_ix3 j⟩
  rw [View.read_apply, embH]
  exact pointH m c t a p f

theorem flushedN_eq (c : Dev nD) (t : Fin cfg0.N) :
    (dats m 0 c).flushed 21 t = ((cfg0.win 21).blk t).view.read (Elt Ideal) ((argsOf m c).outN) := by
  rw [flushed21]
  funext j
  obtain ⟨a, p, f, rfl⟩ : ∃ (a : Fin 2) (p : Fin 64) (f : Fin 1024), j = ix3 a p f := ⟨j 0, j 1, j 2, eq_ix3 j⟩
  rw [View.read_apply, embN]
  exact pointN m c t a p f

/-! ## The 128 blocks tile the array: batch row r lies in point r / 2's block -/

theorem coverC (i : S256x64x1024.Idx) : ∃ t : Fin cfg0.N, (cfg0.win 18).flush t = true ∧ i ∈ ((cfg0.win 18).blk t).view.set := by
  have hN : cfg0.N = 128 := N_0
  have hi0 : (i 0).val < 256 := (i 0).isLt
  have hi1 : (i 1).val < 64 := (i 1).isLt
  have hi2 : (i 2).val < 1024 := (i 2).isLt
  have ht : (i 0).val / 2 < cfg0.N := by rw [hN]; omega
  obtain ⟨h0, h1, h2⟩ := idxOut18 ⟨(i 0).val / 2, ht⟩
  refine ⟨⟨(i 0).val / 2, ht⟩, flush0_18 _, ?_⟩
  show i ∈ ((View.whole main_v16_0).slice (win0_18.rect ⟨(i 0).val / 2, ht⟩)).set
  rw [View.set_slice_whole, Rect.mem_set_unit]
  intro ax
  match ax with
  | ⟨0, _⟩ =>
    show win0_18.index ⟨(i 0).val / 2, ht⟩ 0 * 2 ≤ (i 0).val ∧ (i 0).val < win0_18.index ⟨(i 0).val / 2, ht⟩ 0 * 2 + 2
    rw [h0]; show (i 0).val / 2 * 2 ≤ (i 0).val ∧ (i 0).val < (i 0).val / 2 * 2 + 2; omega
  | ⟨1, _⟩ =>
    show win0_18.index ⟨(i 0).val / 2, ht⟩ 1 * 64 ≤ (i 1).val ∧ (i 1).val < win0_18.index ⟨(i 0).val / 2, ht⟩ 1 * 64 + 64
    rw [h1]; omega
  | ⟨2, _⟩ =>
    show win0_18.index ⟨(i 0).val / 2, ht⟩ 2 * 1024 ≤ (i 2).val ∧ (i 2).val < win0_18.index ⟨(i 0).val / 2, ht⟩ 2 * 1024 + 1024
    rw [h2]; omega

theorem coverM (i : S256x64x1024.Idx) : ∃ t : Fin cfg0.N, (cfg0.win 19).flush t = true ∧ i ∈ ((cfg0.win 19).blk t).view.set := by
  have hN : cfg0.N = 128 := N_0
  have hi0 : (i 0).val < 256 := (i 0).isLt
  have hi1 : (i 1).val < 64 := (i 1).isLt
  have hi2 : (i 2).val < 1024 := (i 2).isLt
  have ht : (i 0).val / 2 < cfg0.N := by rw [hN]; omega
  obtain ⟨h0, h1, h2⟩ := idxOut19 ⟨(i 0).val / 2, ht⟩
  refine ⟨⟨(i 0).val / 2, ht⟩, flush0_19 _, ?_⟩
  show i ∈ ((View.whole main_v16_1).slice (win0_19.rect ⟨(i 0).val / 2, ht⟩)).set
  rw [View.set_slice_whole, Rect.mem_set_unit]
  intro ax
  match ax with
  | ⟨0, _⟩ =>
    show win0_19.index ⟨(i 0).val / 2, ht⟩ 0 * 2 ≤ (i 0).val ∧ (i 0).val < win0_19.index ⟨(i 0).val / 2, ht⟩ 0 * 2 + 2
    rw [h0]; show (i 0).val / 2 * 2 ≤ (i 0).val ∧ (i 0).val < (i 0).val / 2 * 2 + 2; omega
  | ⟨1, _⟩ =>
    show win0_19.index ⟨(i 0).val / 2, ht⟩ 1 * 64 ≤ (i 1).val ∧ (i 1).val < win0_19.index ⟨(i 0).val / 2, ht⟩ 1 * 64 + 64
    rw [h1]; omega
  | ⟨2, _⟩ =>
    show win0_19.index ⟨(i 0).val / 2, ht⟩ 2 * 1024 ≤ (i 2).val ∧ (i 2).val < win0_19.index ⟨(i 0).val / 2, ht⟩ 2 * 1024 + 1024
    rw [h2]; omega

theorem coverH (i : S256x64x1024.Idx) : ∃ t : Fin cfg0.N, (cfg0.win 20).flush t = true ∧ i ∈ ((cfg0.win 20).blk t).view.set := by
  have hN : cfg0.N = 128 := N_0
  have hi0 : (i 0).val < 256 := (i 0).isLt
  have hi1 : (i 1).val < 64 := (i 1).isLt
  have hi2 : (i 2).val < 1024 := (i 2).isLt
  have ht : (i 0).val / 2 < cfg0.N := by rw [hN]; omega
  obtain ⟨h0, h1, h2⟩ := idxOut20 ⟨(i 0).val / 2, ht⟩
  refine ⟨⟨(i 0).val / 2, ht⟩, flush0_20 _, ?_⟩
  show i ∈ ((View.whole main_v16_2).slice (win0_20.rect ⟨(i 0).val / 2, ht⟩)).set
  rw [View.set_slice_whole, Rect.mem_set_unit]
  intro ax
  match ax with
  | ⟨0, _⟩ =>
    show win0_20.index ⟨(i 0).val / 2, ht⟩ 0 * 2 ≤ (i 0).val ∧ (i 0).val < win0_20.index ⟨(i 0).val / 2, ht⟩ 0 * 2 + 2
    rw [h0]; show (i 0).val / 2 * 2 ≤ (i 0).val ∧ (i 0).val < (i 0).val / 2 * 2 + 2; omega
  | ⟨1, _⟩ =>
    show win0_20.index ⟨(i 0).val / 2, ht⟩ 1 * 64 ≤ (i 1).val ∧ (i 1).val < win0_20.index ⟨(i 0).val / 2, ht⟩ 1 * 64 + 64
    rw [h1]; omega
  | ⟨2, _⟩ =>
    show win0_20.index ⟨(i 0).val / 2, ht⟩ 2 * 1024 ≤ (i 2).val ∧ (i 2).val < win0_20.index ⟨(i 0).val / 2, ht⟩ 2 * 1024 + 1024
    rw [h2]; omega

theorem coverN (i : S256x64x1024.Idx) : ∃ t : Fin cfg0.N, (cfg0.win 21).flush t = true ∧ i ∈ ((cfg0.win 21).blk t).view.set := by
  have hN : cfg0.N = 128 := N_0
  have hi0 : (i 0).val < 256 := (i 0).isLt
  have hi1 : (i 1).val < 64 := (i 1).isLt
  have hi2 : (i 2).val < 1024 := (i 2).isLt
  have ht : (i 0).val / 2 < cfg0.N := by rw [hN]; omega
  obtain ⟨h0, h1, h2⟩ := idxOut21 ⟨(i 0).val / 2, ht⟩
  refine ⟨⟨(i 0).val / 2, ht⟩, flush0_21 _, ?_⟩
  show i ∈ ((View.whole main_v16_3).slice (win0_21.rect ⟨(i 0).val / 2, ht⟩)).set
  rw [View.set_slice_whole, Rect.mem_set_unit]
  intro ax
  match ax with
  | ⟨0, _⟩ =>
    show win0_21.index ⟨(i 0).val / 2, ht⟩ 0 * 2 ≤ (i 0).val ∧ (i 0).val < win0_21.index ⟨(i 0).val / 2, ht⟩ 0 * 2 + 2
    rw [h0]; show (i 0).val / 2 * 2 ≤ (i 0).val ∧ (i 0).val < (i 0).val / 2 * 2 + 2; omega
  | ⟨1, _⟩ =>
    show win0_21.index ⟨(i 0).val / 2, ht⟩ 1 * 64 ≤ (i 1).val ∧ (i 1).val < win0_21.index ⟨(i 0).val / 2, ht⟩ 1 * 64 + 64
    rw [h1]; omega
  | ⟨2, _⟩ =>
    show win0_21.index ⟨(i 0).val / 2, ht⟩ 2 * 1024 ≤ (i 2).val ∧ (i 2).val < win0_21.index ⟨(i 0).val / 2, ht⟩ 2 * 1024 + 1024
    rw [h2]; omega

/-! ## The four arrays after the run, and the run -/

theorem finalC (c : Dev nD) : (dats m 0 c).arrAt 18 cfg0.N = (argsOf m c).outC :=
  (dats m 0 c).arrAt_eq_of_cover 18 ((argsOf m c).outC) (fun t _ => flushedC_eq m c t) coverC

theorem finalM (c : Dev nD) : (dats m 0 c).arrAt 19 cfg0.N = (argsOf m c).outM :=
  (dats m 0 c).arrAt_eq_of_cover 19 ((argsOf m c).outM) (fun t _ => flushedM_eq m c t) coverM

theorem finalH (c : Dev nD) : (dats m 0 c).arrAt 20 cfg0.N = (argsOf m c).outH :=
  (dats m 0 c).arrAt_eq_of_cover 20 ((argsOf m c).outH) (fun t _ => flushedH_eq m c t) coverH

theorem finalN (c : Dev nD) : (dats m 0 c).arrAt 21 cfg0.N = (argsOf m c).outN :=
  (dats m 0 c).arrAt_eq_of_cover 21 ((argsOf m c).outN) (fun t _ => flushedN_eq m c t) coverN

/-- Every weakly fair execution of the idealized kernel ends with the four result arrays at the cell update of its
    arguments, the arguments unchanged. -/
theorem run : θ_run defs (onTc (τ := τ) (main (F := Ideal))) ⟨m, fun _ => 0, ρ⟩ fun r => ∀ c : Dev nD,
      r.2.mem ((c : Thread nD τ).loc main_v16_0) = (argsOf m c).outC
      ∧ r.2.mem ((c : Thread nD τ).loc main_v16_1) = (argsOf m c).outM
      ∧ r.2.mem ((c : Thread nD τ).loc main_v16_2) = (argsOf m c).outH
      ∧ r.2.mem ((c : Thread nD τ).loc main_v16_3) = (argsOf m c).outN
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (finalC m c), (h c).2.1.trans (finalM m c), (h c).2.2.1.trans (finalH m c),
      (h c).2.2.2.1.trans (finalN m c), (h c).2.2.2.2⟩)
    (run_blocks m ρ)

end Cert.KernelArray

end
-- ==== Proof.RefCell.lean ====
/-
  The reference program's four results are the cell update of Spec.lean.

  The reference lays the four hidden-to-gate weights side by side into one [1024, 4096] matrix, the four input-to-gate
  weights into one [512, 4096] matrix and the four summed biases into one [4096] vector, forms
      S(b, p, c) = (Σ_k H(b, p, k) · Wcat(k, c) + Σ_k Z(b, p, k) · Rcat(k, c)) + bcat(c),
  and cuts S along its last axis into four blocks of 1024 columns. Column g · 1024 + f of a side-by-side array is column f
  of its g-th piece, so block g of S at (b, p, f) is gate g's pre-activation
      (Σ_k H(b, p, k) · W_g(k, f) + Σ_k Z(b, p, k) · R_g(k, f)) + (bw_g(f) + br_g(f)),
  term by term. The rest of the program is pointwise in (b, p, f), the keep mask read at (b, p, 0); it spells
  m', i, f, n', c', h' exactly as Spec.lean does, with σ(x) written 1 / (1 + exp(−x)) over the literal 1.0, which
  denotes the extended real 1.
-/
import proofs.«108904_j31688268710611_1_alg».proof.Proof.Gen.ReferenceIdeal.Read
import proofs.«108904_j31688268710611_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.RefCell

open Idealize.ShloMosaic Idealize.ShloMosaic.TcCoe Idealize.SL.Sem Cert.ReferenceIdeal Cert.ReferenceIdeal.Read
open Idealize.ShloMosaic.ValueIdx

section Stages

variable (x0 : (⟨S256x64x512, .f32⟩ : BufTy).Contents (Elt Ideal))
  (x1 x2 x3 x4 : (⟨S256x64x1024, .f32⟩ : BufTy).Contents (Elt Ideal))
  (x5 : (⟨S256x64x1, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 : (⟨S1024, .f32⟩ : BufTy).Contents (Elt Ideal))
  (x12 : (⟨S1024x1024, .f32⟩ : BufTy).Contents (Elt Ideal)) (x13 : (⟨S1024, .f32⟩ : BufTy).Contents (Elt Ideal))
  (x14 : (⟨S512x1024, .f32⟩ : BufTy).Contents (Elt Ideal)) (x15 : (⟨S1024, .f32⟩ : BufTy).Contents (Elt Ideal))
  (x16 : (⟨S512x1024, .f32⟩ : BufTy).Contents (Elt Ideal)) (x17 : (⟨S1024, .f32⟩ : BufTy).Contents (Elt Ideal))
  (x18 : (⟨S512x1024, .f32⟩ : BufTy).Contents (Elt Ideal)) (x19 : (⟨S1024, .f32⟩ : BufTy).Contents (Elt Ideal))
  (x20 : (⟨S512x1024, .f32⟩ : BufTy).Contents (Elt Ideal)) (x21 : (⟨S1024, .f32⟩ : BufTy).Contents (Elt Ideal))

/-! ## A side-by-side array at a column of its g-th piece -/

theorem v0_I (j : S1024x4096.Idx) (k f : Fin 1024) (h0 : (j 0).val = k.val) (h1 : (j 1).val = f.val) :
    val_main_v0 (F := Ideal) x6 x8 x10 x12 j = x6 (ix2 k f) := by
  unfold val_main_v0
  exact concatenate_apply_piece _ _ _ j 0 (by show 0 < 4; decide) S1024x1024 x6 rfl rfl 0 rfl (ix2 k f)
    (fun b hb => by
      match b with
      | ⟨0, _⟩ => exact h0.symm
      | ⟨1, _⟩ => exact absurd rfl hb)
    (by show 0 + f.val = (j 1).val; omega)

theorem v1_I (j : S512x4096.Idx) (k : Fin 512) (f : Fin 1024) (h0 : (j 0).val = k.val) (h1 : (j 1).val = f.val) :
    val_main_v1 (F := Ideal) x14 x16 x18 x20 j = x14 (ix2 k f) := by
  unfold val_main_v1
  exact concatenate_apply_piece _ _ _ j 0 (by show 0 < 4; decide) S512x1024 x14 rfl rfl 0 rfl (ix2 k f)
    (fun b hb => by
      match b with
      | ⟨0, _⟩ => exact h0.symm
      | ⟨1, _⟩ => exact absurd rfl hb)
    (by show 0 + f.val = (j 1).val; omega)

theorem v6_I (j : S4096.Idx) (f : Fin 1024) (h0 : (j 0).val = f.val) :
    val_main_v6 (F := Ideal) x7 x9 x11 x13 x15 x17 x19 x21 j = x7 (ix1 f) + x15 (ix1 f) := by
  unfold val_main_v6
  exact concatenate_apply_piece _ _ _ j 0 (by show 0 < 4; decide) S1024 (val_main_v2 (F := Ideal) x7 x15) rfl rfl 0 rfl (ix1 f)
    (fun b hb => by
      match b with
      | ⟨0, _⟩ => exact absurd rfl hb)
    (by show 0 + f.val = (j 0).val; omega)

theorem v0_F (j : S1024x4096.Idx) (k f : Fin 1024) (h0 : (j 0).val = k.val) (h1 : (j 1).val = 1024 + f.val) :
    val_main_v0 (F := Ideal) x6 x8 x10 x12 j = x8 (ix2 k f) := by
  unfold val_main_v0
  exact concatenate_apply_piece _ _ _ j 1 (by show 1 < 4; decide) S1024x1024 x8 rfl rfl 1024 rfl (ix2 k f)
    (fun b hb => by
      match b with
      | ⟨0, _⟩ => exact h0.symm
      | ⟨1, _⟩ => exact absurd rfl hb)
    (by show 1024 + f.val = (j 1).val; omega)

theorem v1_F (j : S512x4096.Idx) (k : Fin 512) (f : Fin 1024) (h0 : (j 0).val = k.val) (h1 : (j 1).val = 1024 + f.val) :
    val_main_v1 (F := Ideal) x14 x16 x18 x20 j = x16 (ix2 k f) := by
  unfold val_main_v1
  exact concatenate_apply_piece _ _ _ j 1 (by show 1 < 4; decide) S512x1024 x16 rfl rfl 1024 rfl (ix2 k f)
    (fun b hb => by
      match b with
      | ⟨0, _⟩ => exact h0.symm
      | ⟨1, _⟩ => exact absurd rfl hb)
    (by show 1024 + f.val = (j 1).val; omega)

theorem v6_F (j : S4096.Idx) (f : Fin 1024) (h0 : (j 0).val = 1024 + f.val) :
    val_main_v6 (F := Ideal) x7 x9 x11 x13 x15 x17 x19 x21 j = x9 (ix1 f) + x17 (ix1 f) := by
  unfold val_main_v6
  exact concatenate_apply_piece _ _ _ j 1 (by show 1 < 4; decide) S1024 (val_main_v3 (F := Ideal) x9 x17) rfl rfl 1024 rfl (ix1 f)
    (fun b hb => by
      match b with
      | ⟨0, _⟩ => exact absurd rfl hb)
    (by show 1024 + f.val = (j 0).val; omega)

theorem v0_O (j : S1024x4096.Idx) (k f : Fin 1024) (h0 : (j 0).val = k.val) (h1 : (j 1).val = 2048 + f.val) :
    val_main_v0 (F := Ideal) x6 x8 x10 x12 j = x10 (ix2 k f) := by
  unfold val_main_v0
  exact concatenate_apply_piece _ _ _ j 2 (by show 2 < 4; decide) S1024x1024 x10 rfl rfl 2048 rfl (ix2 k f)
    (fun b hb => by
      match b with
      | ⟨0, _⟩ => exact h0.symm
      | ⟨1, _⟩ => exact absurd rfl hb)
    (by show 2048 + f.val = (j 1).val; omega)

theorem v1_O (j : S512x4096.Idx) (k : Fin 512) (f : Fin 1024) (h0 : (j 0).val = k.val) (h1 : (j 1).val = 2048 + f.val) :
    val_main_v1 (F := Ideal) x14 x16 x18 x20 j = x18 (ix2 k f) := by
  unfold val_main_v1
  exact concatenate_apply_piece _ _ _ j 2 (by show 2 < 4; decide) S512x1024 x18 rfl rfl 2048 rfl (ix2 k f)
    (fun b hb => by
      match b with
      | ⟨0, _⟩ => exact h0.symm
      | ⟨1, _⟩ => exact absurd rfl hb)
    (by show 2048 + f.val = (j 1).val; omega)

theorem v6_O (j : S4096.Idx) (f : Fin 1024) (h0 : (j 0).val = 2048 + f.val) :
    val_main_v6 (F := Ideal) x7 x9 x11 x13 x15 x17 x19 x21 j = x11 (ix1 f) + x19 (ix1 f) := by
  unfold val_main_v6
  exact concatenate_apply_piece _ _ _ j 2 (by show 2 < 4; decide) S1024 (val_main_v4 (F := Ideal) x11 x19) rfl rfl 2048 rfl (ix1 f)
    (fun b hb => by
      match b with
      | ⟨0, _⟩ => exact absurd rfl hb)
    (by show 2048 + f.val = (j 0).val; omega)

theorem v0_Z (j : S1024x4096.Idx) (k f : Fin 1024) (h0 : (j 0).val = k.val) (h1 : (j 1).val = 3072 + f.val) :
    val_main_v0 (F := Ideal) x6 x8 x10 x12 j = x12 (ix2 k f) := by
  unfold val_main_v0
  exact concatenate_apply_piece _ _ _ j 3 (by show 3 < 4; decide) S1024x1024 x12 rfl rfl 3072 rfl (ix2 k f)
    (fun b hb => by
      match b with
      | ⟨0, _⟩ => exact h0.symm
      | ⟨1, _⟩ => exact absurd rfl hb)
    (by show 3072 + f.val = (j 1).val; omega)

theorem v1_Z (j : S512x4096.Idx) (k : Fin 512) (f : Fin 1024) (h0 : (j 0).val = k.val) (h1 : (j 1).val = 3072 + f.val) :
    val_main_v1 (F := Ideal) x14 x16 x18 x20 j = x20 (ix2 k f) := by
  unfold val_main_v1
  exact concatenate_apply_piece _ _ _ j 3 (by show 3 < 4; decide) S512x1024 x20 rfl rfl 3072 rfl (ix2 k f)
    (fun b hb => by
      match b with
      | ⟨0, _⟩ => exact h0.symm
      | ⟨1, _⟩ => exact absurd rfl hb)
    (by show 3072 + f.val = (j 1).val; omega)

theorem v6_Z (j : S4096.Idx) (f : Fin 1024) (h0 : (j 0).val = 3072 + f.val) :
    val_main_v6 (F := Ideal) x7 x9 x11 x13 x15 x17 x19 x21 j = x13 (ix1 f) + x21 (ix1 f) := by
  unfold val_main_v6
  exact concatenate_apply_piece _ _ _ j 3 (by show 3 < 4; decide) S1024 (val_main_v5 (F := Ideal) x13 x21) rfl rfl 3072 rfl (ix1 f)
    (fun b hb => by
      match b with
      | ⟨0, _⟩ => exact absurd rfl hb)
    (by show 3072 + f.val = (j 0).val; omega)

/-! ## The four blocks of the summed products are the four pre-activations -/

/-- The summed products and bias, cut at the first block of 1024 columns, are that gate's pre-activation. -/
theorem v13_at (b : Fin 256) (p : Fin 64) (f : Fin 1024) :
    val_main_v13 (F := Ideal) x0 x3 x6 x7 x8 x9 x10 x11 x12 x13 x14 x15 x16 x17 x18 x19 x20 x21 (ix3 b p f)
      = Cert.Cell.gate x3 x0 x6 x14 x7 x15 b p f := by
  rw [val_main_v13_apply, val_main_v12_apply, val_main_v9_apply, val_main_v7_apply, val_main_v8_apply,
    val_main_v11_apply, val_main_v10_apply, Ideal.addf_def, Ideal.addf_def]
  unfold Cert.Cell.gate
  refine congrArg₂ (· + ·) (congrArg₂ (· + ·) (Finset.sum_congr rfl fun k _ => ?_) (Finset.sum_congr rfl fun k _ => ?_)) ?_
  · refine congrArg₂ (· * ·) (congrArg x3 (funext fun a => ?_)) (v0_I x6 x8 x10 x12 _ k f rfl rfl)
    match a with
    | ⟨0, _⟩ => rfl
    | ⟨1, _⟩ => rfl
    | ⟨2, _⟩ => rfl
  · refine congrArg₂ (· * ·) (congrArg x0 (funext fun a => ?_)) (v1_I x14 x16 x18 x20 _ k f rfl rfl)
    match a with
    | ⟨0, _⟩ => rfl
    | ⟨1, _⟩ => rfl
    | ⟨2, _⟩ => rfl
  · exact v6_I x7 x9 x11 x13 x15 x17 x19 x21 _ f rfl

/-- The summed products and bias, cut at the second block of 1024 columns, are that gate's pre-activation. -/
theorem v14_at (b : Fin 256) (p : Fin 64) (f : Fin 1024) :
    val_main_v14 (F := Ideal) x0 x3 x6 x7 x8 x9 x10 x11 x12 x13 x14 x15 x16 x17 x18 x19 x20 x21 (ix3 b p f)
      = Cert.Cell.gate x3 x0 x8 x16 x9 x17 b p f := by
  rw [val_main_v14_apply, val_main_v12_apply, val_main_v9_apply, val_main_v7_apply, val_main_v8_apply,
    val_main_v11_apply, val_main_v10_apply, Ideal.addf_def, Ideal.addf_def]
  unfold Cert.Cell.gate
  refine congrArg₂ (· + ·) (congrArg₂ (· + ·) (Finset.sum_congr rfl fun k _ => ?_) (Finset.sum_congr rfl fun k _ => ?_)) ?_
  · refine congrArg₂ (· * ·) (congrArg x3 (funext fun a => ?_)) (v0_F x6 x8 x10 x12 _ k f rfl rfl)
    match a with
    | ⟨0, _⟩ => rfl
    | ⟨1, _⟩ => rfl
    | ⟨2, _⟩ => rfl
  · refine congrArg₂ (· * ·) (congrArg x0 (funext fun a => ?_)) (v1_F x14 x16 x18 x20 _ k f rfl rfl)
    match a with
    | ⟨0, _⟩ => rfl
    | ⟨1, _⟩ => rfl
    | ⟨2, _⟩ => rfl
  · exact v6_F x7 x9 x11 x13 x15 x17 x19 x21 _ f rfl

/-- The summed products and bias, cut at the third block of 1024 columns, are that gate's pre-activation. -/
theorem v15_at (b : Fin 256) (p : Fin 64) (f : Fin 1024) :
    val_main_v15 (F := Ideal) x0 x3 x6 x7 x8 x9 x10 x11 x12 x13 x14 x15 x16 x17 x18 x19 x20 x21 (ix3 b p f)
      = Cert.Cell.gate x3 x0 x10 x18 x11 x19 b p f := by
  rw [val_main_v15_apply, val_main_v12_apply, val_main_v9_apply, val_main_v7_apply, val_main_v8_apply,
    val_main_v11_apply, val_main_v10_apply, Ideal.addf_def, Ideal.addf_def]
  unfold Cert.Cell.gate
  refine congrArg₂ (· + ·) (congrArg₂ (· + ·) (Finset.sum_congr rfl fun k _ => ?_) (Finset.sum_congr rfl fun k _ => ?_)) ?_
  · refine congrArg₂ (· * ·) (congrArg x3 (funext fun a => ?_)) (v0_O x6 x8 x10 x12 _ k f rfl rfl)
    match a with
    | ⟨0, _⟩ => rfl
    | ⟨1, _⟩ => rfl
    | ⟨2, _⟩ => rfl
  · refine congrArg₂ (· * ·) (congrArg x0 (funext fun a => ?_)) (v1_O x14 x16 x18 x20 _ k f rfl rfl)
    match a with
    | ⟨0, _⟩ => rfl
    | ⟨1, _⟩ => rfl
    | ⟨2, _⟩ => rfl
  · exact v6_O x7 x9 x11 x13 x15 x17 x19 x21 _ f rfl

/-- The summed products and bias, cut at the fourth block of 1024 columns, are that gate's pre-activation. -/
theorem v16_at (b : Fin 256) (p : Fin 64) (f : Fin 1024) :
    val_main_v16 (F := Ideal) x0 x3 x6 x7 x8 x9 x10 x11 x12 x13 x14 x15 x16 x17 x18 x19 x20 x21 (ix3 b p f)
      = Cert.Cell.gate x3 x0 x12 x20 x13 x21 b p f := by
  rw [val_main_v16_apply, val_main_v12_apply, val_main_v9_apply, val_main_v7_apply, val_main_v8_apply,
    val_main_v11_apply, val_main_v10_apply, Ideal.addf_def, Ideal.addf_def]
  unfold Cert.Cell.gate
  refine congrArg₂ (· + ·) (congrArg₂ (· + ·) (Finset.sum_congr rfl fun k _ => ?_) (Finset.sum_congr rfl fun k _ => ?_)) ?_
  · refine congrArg₂ (· * ·) (congrArg x3 (funext fun a => ?_)) (v0_Z x6 x8 x10 x12 _ k f rfl rfl)
    match a with
    | ⟨0, _⟩ => rfl
    | ⟨1, _⟩ => rfl
    | ⟨2, _⟩ => rfl
  · refine congrArg₂ (· * ·) (congrArg x0 (funext fun a => ?_)) (v1_Z x14 x16 x18 x20 _ k f rfl rfl)
    match a with
    | ⟨0, _⟩ => rfl
    | ⟨1, _⟩ => rfl
    | ⟨2, _⟩ => rfl
  · exact v6_Z x7 x9 x11 x13 x15 x17 x19 x21 _ f rfl

/-! ## The pointwise update -/

/-- The new stabilizer. -/
theorem v18_at (b : Fin 256) (p : Fin 64) (f : Fin 1024) :
    val_main_v18 (F := Ideal) x0 x2 x3 x6 x7 x8 x9 x10 x11 x12 x13 x14 x15 x16 x17 x18 x19 x20 x21 (ix3 b p f)
      = Cert.Cell.mNew (Cert.Cell.gate x3 x0 x6 x14 x7 x15 b p f) (Cert.Cell.gate x3 x0 x8 x16 x9 x17 b p f) (x2 (ix3 b p f)) := by
  rw [val_main_v18_apply, val_main_v17_apply, v14_at, v13_at]
  rfl

/-- The stabilized input gate. -/
theorem v20_at (b : Fin 256) (p : Fin 64) (f : Fin 1024) :
    val_main_v20 (F := Ideal) x0 x2 x3 x6 x7 x8 x9 x10 x11 x12 x13 x14 x15 x16 x17 x18 x19 x20 x21 (ix3 b p f)
      = Cert.Cell.iGate (Cert.Cell.gate x3 x0 x6 x14 x7 x15 b p f) (Cert.Cell.gate x3 x0 x8 x16 x9 x17 b p f) (x2 (ix3 b p f)) := by
  rw [val_main_v20_apply, val_main_v19_apply, v13_at, v18_at]
  rfl

/-- The stabilized forget gate. -/
theorem v23_at (b : Fin 256) (p : Fin 64) (f : Fin 1024) :
    val_main_v23 (F := Ideal) x0 x2 x3 x6 x7 x8 x9 x10 x11 x12 x13 x14 x15 x16 x17 x18 x19 x20 x21 (ix3 b p f)
      = Cert.Cell.fGate (Cert.Cell.gate x3 x0 x6 x14 x7 x15 b p f) (Cert.Cell.gate x3 x0 x8 x16 x9 x17 b p f) (x2 (ix3 b p f)) := by
  rw [val_main_v23_apply, val_main_v22_apply, val_main_v21_apply, v14_at, v18_at]
  rfl

/-- The new normalizer. -/
theorem v31_at (b : Fin 256) (p : Fin 64) (f : Fin 1024) :
    val_main_v31 (F := Ideal) x0 x2 x3 x4 x6 x7 x8 x9 x10 x11 x12 x13 x14 x15 x16 x17 x18 x19 x20 x21 (ix3 b p f)
      = Cert.Cell.nNew (Cert.Cell.gate x3 x0 x6 x14 x7 x15 b p f) (Cert.Cell.gate x3 x0 x8 x16 x9 x17 b p f) (x2 (ix3 b p f)) (x4 (ix3 b p f)) := by
  rw [val_main_v31_apply, val_main_v30_apply, v23_at, v20_at]
  rfl

/-- The keep mask is read at (b, p, 0) whatever the feature. -/
theorem idx36 (b : Fin 256) (p : Fin 64) (f : Fin 1024) : idx_main_v36 (ix3 b p f) = ix3 b p (0 : Fin 1) :=
  funext fun a => by
    match a with
    | ⟨0, _⟩ => rfl
    | ⟨1, _⟩ => rfl
    | ⟨2, _⟩ => rfl

/-- The keep mask is read at (b, p, 0) whatever the feature. -/
theorem idx40 (b : Fin 256) (p : Fin 64) (f : Fin 1024) : idx_main_v40 (ix3 b p f) = ix3 b p (0 : Fin 1) :=
  funext fun a => by
    match a with
    | ⟨0, _⟩ => rfl
    | ⟨1, _⟩ => rfl
    | ⟨2, _⟩ => rfl

/-- The keep mask is read at (b, p, 0) whatever the feature. -/
theorem idx45 (b : Fin 256) (p : Fin 64) (f : Fin 1024) : idx_main_v45 (ix3 b p f) = ix3 b p (0 : Fin 1) :=
  funext fun a => by
    match a with
    | ⟨0, _⟩ => rfl
    | ⟨1, _⟩ => rfl
    | ⟨2, _⟩ => rfl

/-- The keep mask is read at (b, p, 0) whatever the feature. -/
theorem idx49 (b : Fin 256) (p : Fin 64) (f : Fin 1024) : idx_main_v49 (ix3 b p f) = ix3 b p (0 : Fin 1) :=
  funext fun a => by
    match a with
    | ⟨0, _⟩ => rfl
    | ⟨1, _⟩ => rfl
    | ⟨2, _⟩ => rfl

/-- The new cell state. -/
theorem v42_at (b : Fin 256) (p : Fin 64) (f : Fin 1024) :
    val_main_v42 (F := Ideal) x0 x1 x2 x3 x5 x6 x7 x8 x9 x10 x11 x12 x13 x14 x15 x16 x17 x18 x19 x20 x21 (ix3 b p f)
      = Cert.Cell.cNew (Cert.Cell.gate x3 x0 x6 x14 x7 x15 b p f) (Cert.Cell.gate x3 x0 x8 x16 x9 x17 b p f) (Cert.Cell.gate x3 x0 x12 x20 x13 x21 b p f) (x2 (ix3 b p f)) (x1 (ix3 b p f)) (x5 (ix3 b p (0 : Fin 1))) := by
  rw [val_main_v42_apply, val_main_v37_apply, val_main_v35_apply, val_main_v33_apply, val_main_v34_apply, val_main_v32_apply,
    val_main_v36_apply, val_main_v41_apply, val_main_v40_apply, val_main_v39_apply, val_main_v38_apply, val_main_cst_1_apply,
    v23_at, v20_at, v16_at, idx36, idx40]
  rfl

/-- 1 / (1 + exp (−õ)) with the literal 1.0 is the logistic function of õ. -/
theorem v29_at (b : Fin 256) (p : Fin 64) (f : Fin 1024) :
    val_main_v29 (F := Ideal) x0 x3 x6 x7 x8 x9 x10 x11 x12 x13 x14 x15 x16 x17 x18 x19 x20 x21 (ix3 b p f)
      = Ideal.logistic (Cert.Cell.gate x3 x0 x10 x18 x11 x19 b p f) := by
  rw [val_main_v29_apply, val_main_v28_apply, val_main_cst_0_apply, val_main_v27_apply, val_main_v26_apply, val_main_cst_apply,
    val_main_v25_apply, val_main_v24_apply, v15_at]
  show Ideal.div (Ideal.ofBits .f32 0x3F800000#32) (Ideal.ofBits .f32 0x3F800000#32 + Ideal.exp (-(Cert.Cell.gate x3 x0 x10 x18 x11 x19 b p f))) = _
  rw [Ideal.ofBits_one_f32]
  rfl

/-- The new hidden state. -/
theorem v51_at (b : Fin 256) (p : Fin 64) (f : Fin 1024) :
    val_main_v51 (F := Ideal) x0 x1 x2 x3 x4 x5 x6 x7 x8 x9 x10 x11 x12 x13 x14 x15 x16 x17 x18 x19 x20 x21 (ix3 b p f)
      = Cert.Cell.hNew (Cert.Cell.gate x3 x0 x6 x14 x7 x15 b p f) (Cert.Cell.gate x3 x0 x8 x16 x9 x17 b p f) (Cert.Cell.gate x3 x0 x10 x18 x11 x19 b p f) (Cert.Cell.gate x3 x0 x12 x20 x13 x21 b p f) (x2 (ix3 b p f)) (x1 (ix3 b p f)) (x4 (ix3 b p f)) (x3 (ix3 b p f)) (x5 (ix3 b p (0 : Fin 1))) := by
  rw [val_main_v51_apply, val_main_v46_apply, val_main_v44_apply, val_main_v43_apply, val_main_v45_apply, val_main_v50_apply,
    val_main_v49_apply, val_main_v48_apply, val_main_v47_apply, val_main_cst_2_apply, v29_at, v42_at, v31_at, idx45, idx49]
  rfl

end Stages

/-! ## The four results -/

/-- The reference's argument arrays on device c, as the cell's arguments. -/
def argsOf (m : (ℓ : Loc nD τ sig) → Buf (Elt Ideal) ℓ) (c : Dev nD) : Cert.Cell.Args where
  Zi := m ((c.tc : Thread nD τ).loc main_arg0)
  Ci := m ((c.tc : Thread nD τ).loc main_arg1)
  Mi := m ((c.tc : Thread nD τ).loc main_arg2)
  Hi := m ((c.tc : Thread nD τ).loc main_arg3)
  Ni := m ((c.tc : Thread nD τ).loc main_arg4)
  keep := m ((c.tc : Thread nD τ).loc main_arg5)
  WI := m ((c.tc : Thread nD τ).loc main_arg6)
  bWI := m ((c.tc : Thread nD τ).loc main_arg7)
  WF := m ((c.tc : Thread nD τ).loc main_arg8)
  bWF := m ((c.tc : Thread nD τ).loc main_arg9)
  WO := m ((c.tc : Thread nD τ).loc main_arg10)
  bWO := m ((c.tc : Thread nD τ).loc main_arg11)
  WZ := m ((c.tc : Thread nD τ).loc main_arg12)
  bWZ := m ((c.tc : Thread nD τ).loc main_arg13)
  RI := m ((c.tc : Thread nD τ).loc main_arg14)
  bRI := m ((c.tc : Thread nD τ).loc main_arg15)
  RF := m ((c.tc : Thread nD τ).loc main_arg16)
  bRF := m ((c.tc : Thread nD τ).loc main_arg17)
  RO := m ((c.tc : Thread nD τ).loc main_arg18)
  bRO := m ((c.tc : Thread nD τ).loc main_arg19)
  RZ := m ((c.tc : Thread nD τ).loc main_arg20)
  bRZ := m ((c.tc : Thread nD τ).loc main_arg21)

/-- The reference's first result is the new cell state. -/
theorem outC_eq (m : (ℓ : Loc nD τ sig) → Buf (Elt Ideal) ℓ) (c : Dev nD) :
    Cert.ReferenceIdeal.Value.res_main_v42 (F := Ideal) m c = (argsOf m c).outC := by
  refine (val_main_v42_eq m c).trans ?_
  funext j
  obtain ⟨b, p, f, rfl⟩ : ∃ (b : Fin 256) (p : Fin 64) (f : Fin 1024), j = ix3 b p f := ⟨j 0, j 1, j 2, eq_ix3 j⟩
  exact v42_at _ _ _ _ _ _ _ _ _ _ _ _ _ _ _ _ _ _ _ _ _ b p f

/-- The reference's third result is the new hidden state. -/
theorem outH_eq (m : (ℓ : Loc nD τ sig) → Buf (Elt Ideal) ℓ) (c : Dev nD) :
    Cert.ReferenceIdeal.Value.res_main_v51 (F := Ideal) m c = (argsOf m c).outH := by
  refine (val_main_v51_eq m c).trans ?_
  funext j
  obtain ⟨b, p, f, rfl⟩ : ∃ (b : Fin 256) (p : Fin 64) (f : Fin 1024), j = ix3 b p f := ⟨j 0, j 1, j 2, eq_ix3 j⟩
  exact v51_at _ _ _ _ _ _ _ _ _ _ _ _ _ _ _ _ _ _ _ _ _ _ b p f

/-- The reference's fourth result is the new normalizer. -/
theorem outN_eq (m : (ℓ : Loc nD τ sig) → Buf (Elt Ideal) ℓ) (c : Dev nD) :
    Cert.ReferenceIdeal.Value.res_main_v31 (F := Ideal) m c = (argsOf m c).outN := by
  refine (val_main_v31_eq m c).trans ?_
  funext j
  obtain ⟨b, p, f, rfl⟩ : ∃ (b : Fin 256) (p : Fin 64) (f : Fin 1024), j = ix3 b p f := ⟨j 0, j 1, j 2, eq_ix3 j⟩
  exact v31_at _ _ _ _ _ _ _ _ _ _ _ _ _ _ _ _ _ _ _ _ b p f

/-- The reference's second result is the new stabilizer. -/
theorem outM_eq (m : (ℓ : Loc nD τ sig) → Buf (Elt Ideal) ℓ) (c : Dev nD) :
    val_main_v18 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      = (argsOf m c).outM := by
  funext j
  obtain ⟨b, p, f, rfl⟩ : ∃ (b : Fin 256) (p : Fin 64) (f : Fin 1024), j = ix3 b p f := ⟨j 0, j 1, j 2, eq_ix3 j⟩
  exact v18_at _ _ _ _ _ _ _ _ _ _ _ _ _ _ _ _ _ _ _ b p f

end Cert.RefCell

end
-- ==== Proof.lean ====
/-
  The certificate of the fused cell-update kernel against the plain reference.

  Both programs take the input rows, the old state (cell, stabilizer, hidden, normalizer), a keep mask, and for each of
  four gates a hidden-to-gate weight, an input-to-gate weight and two biases, and return the new cell state, stabilizer,
  hidden state and normalizer (Proof/Spec.lean states the update once over the extended reals). The kernel walks the batch
  axis two rows at a time: per block it forms each gate's pre-activation by two products with that gate's own weights and
  one bias row the host has summed, then updates pointwise. The reference lays the four gates' weights and biases side by
  side, forms all pre-activations by two products, cuts the result into the four gates, then updates pointwise. Over the
  extended reals the narrowing of the kernel's product operands is the identity and a product against side-by-side weights
  is, column block by column block, the product against each weight, so the two agree term by term: no law beyond the
  definitions is used, and the precondition is never opened.

  Kernel side: Proof/BlockGate.lean (a block's pre-activation at an index), Proof/KernelCell.lean (a point's four output
  blocks at an index), Proof/KernelArray.lean (the blocks tile the arrays; the run). Reference side: Proof/RefCell.lean.
  The ledger of the idealization is empty, so the idealized kernel is the kernel's own text.
-/
import proofs.«108904_j31688268710611_1_alg».proof.Defs
import proofs.«108904_j31688268710611_1_alg».proof.Proof.Gen.Kernel
import proofs.«108904_j31688268710611_1_alg».proof.Proof.Gen.Kernel.Skeleton
import proofs.«108904_j31688268710611_1_alg».proof.Proof.Gen.Kernel.Launch
import proofs.«108904_j31688268710611_1_alg».proof.Proof.Gen.Kernel.Points
import proofs.«108904_j31688268710611_1_alg».proof.Proof.Gen.Kernel.Frame
import proofs.«108904_j31688268710611_1_alg».proof.Proof.Gen.KernelIdeal
import proofs.«108904_j31688268710611_1_alg».proof.Proof.Gen.KernelIdeal.Skeleton
import proofs.«108904_j31688268710611_1_alg».proof.Proof.Gen.KernelIdeal.Launch
import proofs.«108904_j31688268710611_1_alg».proof.Proof.Gen.KernelIdeal.Points
import proofs.«108904_j31688268710611_1_alg».proof.Proof.Gen.KernelIdeal.Frame
import proofs.«108904_j31688268710611_1_alg».proof.Proof.Gen.ReferenceIdeal
import proofs.«108904_j31688268710611_1_alg».proof.Proof.Gen.Pre_finite_inputs
import proofs.«108904_j31688268710611_1_alg».proof.Proof.KernelIdealValue
import proofs.«108904_j31688268710611_1_alg».proof.Proof.Gen.ReferenceIdeal.Run
import proofs.«108904_j31688268710611_1_alg».proof.Proof.Gen.ReferenceIdeal.Read
import proofs.«108904_j31688268710611_1_alg».proof.Proof.KernelArray
import proofs.«108904_j31688268710611_1_alg».proof.Proof.RefCell
import Idealize.ShloMosaic.Adequacy
import Idealize.ShloMosaic.Init

noncomputable section

namespace Cert.Proof

open Idealize.ShloMosaic Idealize.SL.Sem

/-- The kernel as printed terminates, faults nowhere and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the four arrays of the cell update of those
    arguments: the kernel block by block, the reference whole. -/
theorem algebraic : Cert.algebraic_KernelIdeal_ReferenceIdeal := by
  intro m ρ m' ρ' _ hagree
  refine ⟨fun c => (Cert.KernelArray.argsOf m c).outC, fun c => (Cert.KernelArray.argsOf m c).outM,
    fun c => (Cert.KernelArray.argsOf m c).outH, fun c => (Cert.KernelArray.argsOf m c).outN, Cert.KernelArray.run m ρ, ?_⟩
  refine (θ_run Cert.ReferenceIdeal.defs _ _).mono (fun _ h c => ?_) (Cert.ReferenceIdeal.Value.run (F := Ideal) m' ρ')
  have hA : Cert.RefCell.argsOf m' c = Cert.KernelArray.argsOf m c := by
    obtain ⟨e0, e1, e2, e3, e4, e5, e6, e7, e8, e9, e10, e11, e12, e13, e14, e15, e16, e17, e18, e19, e20, e21⟩ := hagree c
    unfold Cert.RefCell.argsOf Cert.KernelArray.argsOf
    rw [e0, e1, e2, e3, e4, e5, e6, e7, e8, e9, e10, e11, e12, e13, e14, e15, e16, e17, e18, e19, e20, e21]
  obtain ⟨r0, r1, r2, r3, rest⟩ := h c
  exact ⟨r0.trans ((Cert.RefCell.outC_eq m' c).trans (congrArg Cert.Cell.Args.outC hA)),
    r1.trans ((Cert.RefCell.outM_eq m' c).trans (congrArg Cert.Cell.Args.outM hA)),
    r2.trans ((Cert.RefCell.outH_eq m' c).trans (congrArg Cert.Cell.Args.outH hA)),
    r3.trans ((Cert.RefCell.outN_eq m' c).trans (congrArg Cert.Cell.Args.outN hA)), rest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
